-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x7 : Shape := ⟨2, ![256, 7]⟩
abbrev S515x7 : Shape := ⟨2, ![515, 7]⟩
abbrev S515 : Shape := ⟨1, ![515]⟩
abbrev S260x515 : Shape := ⟨2, ![260, 515]⟩
abbrev S260 : Shape := ⟨1, ![260]⟩
abbrev S65536x260 : Shape := ⟨2, ![65536, 260]⟩
abbrev S65536 : Shape := ⟨1, ![65536]⟩
abbrev S2048x65536 : Shape := ⟨2, ![2048, 65536]⟩
abbrev S2048 : Shape := ⟨1, ![2048]⟩
abbrev S_ : Shape := ⟨0, ![]⟩

class Facts : Prop where
  bcast_S_S256x7 : S_.BroadcastsInDim S256x7 (![] : Fin 0 → Fin S256x7.rank)
  reducesTo_S256x7_S_d0_1 : S256x7.ReducesTo [0, 1] S_
  h_S_ : 0 < S_.numel
  bcast_S_S515x7 : S_.BroadcastsInDim S515x7 (![] : Fin 0 → Fin S515x7.rank)
  reducesTo_S515x7_S_d0_1 : S515x7.ReducesTo [0, 1] S_
  bcast_S_S515 : S_.BroadcastsInDim S515 (![] : Fin 0 → Fin S515.rank)
  reducesTo_S515_S_d0 : S515.ReducesTo [0] S_
  bcast_S_S260x515 : S_.BroadcastsInDim S260x515 (![] : Fin 0 → Fin S260x515.rank)
  reducesTo_S260x515_S_d0_1 : S260x515.ReducesTo [0, 1] S_
  bcast_S_S260 : S_.BroadcastsInDim S260 (![] : Fin 0 → Fin S260.rank)
  reducesTo_S260_S_d0 : S260.ReducesTo [0] S_
  bcast_S_S65536x260 : S_.BroadcastsInDim S65536x260 (![] : Fin 0 → Fin S65536x260.rank)
  reducesTo_S65536x260_S_d0_1 : S65536x260.ReducesTo [0, 1] S_
  bcast_S_S65536 : S_.BroadcastsInDim S65536 (![] : Fin 0 → Fin S65536.rank)
  reducesTo_S65536_S_d0 : S65536.ReducesTo [0] S_
  bcast_S_S2048x65536 : S_.BroadcastsInDim S2048x65536 (![] : Fin 0 → Fin S2048x65536.rank)
  reducesTo_S2048x65536_S_d0_1 : S2048x65536.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048x65536 .f32) (main_arg8 : FVec F S2048 .f32) (main_v33 : IVec S_ 1) : IVec S_ 1 :=
  let main_v34 : FVec F S2048x65536 .f32 := Host.absf main_arg7
  let main_cst_12 : FVec F S_ .f32 := constant S_ .f32 0x7F800000#32
  let main_v35 : FVec F S2048x65536 .f32 := broadcastInDim S2048x65536 ![] bcast_S_S2048x65536 main_cst_12
  let main_v36 : IVec S2048x65536 1 := cmpf .olt main_v34 main_v35
  let main_c_13 : IVec S_ 1 := constantI S_ 1 1#1
  let main_v37 : IVec S_ 1 := (fun x v => Host.reduce IntOp.andi x v reducesTo_S2048x65536_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  main_v43

def fn_part1 {F : FTy → Type} [FloatOps F] (main_arg4 : FVec F S260 .f32) (main_arg5 : FVec F S65536x260 .f32) (main_arg6 : FVec F S65536 .f32) (main_arg7 : FVec F S2048x65536 .f32) (main_arg8 : FVec F S2048 .f32) (main_v13 : IVec S_ 1) (main_v16 : IVec S260x515 1) : IVec S_ 1 :=
  let main_c_5 : IVec S_ 1 := constantI S_ 1 1#1
  let main_v17 : IVec S_ 1 := (fun x v => Host.reduce IntOp.andi x v reducesTo_S260x515_S_d0_1 h_S_) main_v16 main_c_5
  let main_v18 : IVec S_ 1 := andi main_v13 main_v17
  let main_v19 : FVec F S260 .f32 := Host.absf main_arg4
  let main_cst_6 : FVec F S_ .f32 := constant S_ .f32 0x7F800000#32
  let main_v20 : FVec F S260 .f32 := broadcastInDim S260 ![] bcast_S_S260 main_cst_6
  let main_v21 : IVec S260 1 := cmpf .olt main_v19 main_v20
  let main_c_7 : IVec S_ 1 := constantI S_ 1 1#1
  let main_v22 : IVec S_ 1 := (fun x v => Host.reduce IntOp.andi x v reducesTo_S260_S_d0 h_S_) main_v21 main_c_7
  let main_v23 : IVec S_ 1 := andi main_v18 main_v22
  let main_v24 : FVec F S65536x260 .f32 := Host.absf main_arg5
  let main_cst_8 : FVec F S_ .f32 := constant S_ .f32 0x7F800000#32
  let main_v25 : FVec F S65536x260 .f32 := broadcastInDim S65536x260 ![] bcast_S_S65536x260 main_cst_8
  let main_v26 : IVec S65536x260 1 := cmpf .olt main_v24 main_v25
  let main_c_9 : IVec S_ 1 := constantI S_ 1 1#1
  let main_v27 : IVec S_ 1 := (fun x v => Host.reduce IntOp.andi x v reducesTo_S65536x260_S_d0_1 h_S_) main_v26 main_c_9
  let main_v28 : IVec S_ 1 := andi main_v23 main_v27
  let main_v29 : FVec F S65536 .f32 := Host.absf main_arg6
  let main_cst_10 : FVec F S_ .f32 := constant S_ .f32 0x7F800000#32
  let main_v30 : FVec F S65536 .f32 := broadcastInDim S65536 ![] bcast_S_S65536 main_cst_10
  let main_v31 : IVec S65536 1 := cmpf .olt main_v29 main_v30
  let main_c_11 : IVec S_ 1 := constantI S_ 1 1#1
  let main_v32 : IVec S_ 1 := (fun x v => Host.reduce IntOp.andi x v reducesTo_S65536_S_d0 h_S_) main_v31 main_c_11
  let main_v33 : IVec S_ 1 := andi main_v28 main_v32
  fn_part2 (F := F) main_arg7 main_arg8 main_v33

def fn {F : FTy → Type} [FloatOps F] (main_arg0 : FVec F S256x7 .f32) (main_arg1 : FVec F S515x7 .f32) (main_arg2 : FVec F S515 .f32) (main_arg3 : FVec F S260x515 .f32) (main_arg4 : FVec F S260 .f32) (main_arg5 : FVec F S65536x260 .f32) (main_arg6 : FVec F S65536 .f32) (main_arg7 : FVec F S2048x65536 .f32) (main_arg8 : FVec F S2048 .f32) : IVec S_ 1 :=
  let main_v0 : FVec F S256x7 .f32 := Host.absf main_arg0
  let main_cst : FVec F S_ .f32 := constant S_ .f32 0x7F800000#32
  let main_v1 : FVec F S256x7 .f32 := broadcastInDim S256x7 ![] bcast_S_S256x7 main_cst
  let main_v2 : IVec S256x7 1 := cmpf .olt main_v0 main_v1
  let main_c : IVec S_ 1 := constantI S_ 1 1#1
  let main_v3 : IVec S_ 1 := (fun x v => Host.reduce IntOp.andi x v reducesTo_S256x7_S_d0_1 h_S_) main_v2 main_c
  let main_v4 : FVec F S515x7 .f32 := Host.absf main_arg1
  let main_cst_0 : FVec F S_ .f32 := constant S_ .f32 0x7F800000#32
  let main_v5 : FVec F S515x7 .f32 := broadcastInDim S515x7 ![] bcast_S_S515x7 main_cst_0
  let main_v6 : IVec S515x7 1 := cmpf .olt main_v4 main_v5
  let main_c_1 : IVec S_ 1 := constantI S_ 1 1#1
  let main_v7 : IVec S_ 1 := (fun x v => Host.reduce IntOp.andi x v reducesTo_S515x7_S_d0_1 h_S_) main_v6 main_c_1
  let main_v8 : IVec S_ 1 := andi main_v3 main_v7
  let main_v9 : FVec F S515 .f32 := Host.absf main_arg2
  let main_cst_2 : FVec F S_ .f32 := constant S_ .f32 0x7F800000#32
  let main_v10 : FVec F S515 .f32 := broadcastInDim S515 ![] bcast_S_S515 main_cst_2
  let main_v11 : IVec S515 1 := cmpf .olt main_v9 main_v10
  let main_c_3 : IVec S_ 1 := constantI S_ 1 1#1
  let main_v12 : IVec S_ 1 := (fun x v => Host.reduce IntOp.andi x v reducesTo_S515_S_d0 h_S_) main_v11 main_c_3
  let main_v13 : IVec S_ 1 := andi main_v8 main_v12
  let main_v14 : FVec F S260x515 .f32 := Host.absf main_arg3
  let main_cst_4 : FVec F S_ .f32 := constant S_ .f32 0x7F800000#32
  let main_v15 : FVec F S260x515 .f32 := broadcastInDim S260x515 ![] bcast_S_S260x515 main_cst_4
  let main_v16 : IVec S260x515 1 := cmpf .olt main_v14 main_v15
  fn_part1 (F := F) main_arg4 main_arg5 main_arg6 main_arg7 main_arg8 main_v13 main_v16
-- ==== Kernel.lean ====
abbrev S256x7 : Shape := ⟨2, ![256, 7]⟩
abbrev S515x7 : Shape := ⟨2, ![515, 7]⟩
abbrev S515 : Shape := ⟨1, ![515]⟩
abbrev S260x515 : Shape := ⟨2, ![260, 515]⟩
abbrev S260 : Shape := ⟨1, ![260]⟩
abbrev S65536x260 : Shape := ⟨2, ![65536, 260]⟩
abbrev S65536 : Shape := ⟨1, ![65536]⟩
abbrev S2048x65536 : Shape := ⟨2, ![2048, 65536]⟩
abbrev S2048 : Shape := ⟨1, ![2048]⟩
abbrev S1x515 : Shape := ⟨2, ![1, 515]⟩
abbrev S1x260 : Shape := ⟨2, ![1, 260]⟩
abbrev S1x65536 : Shape := ⟨2, ![1, 65536]⟩
abbrev S1x2048 : Shape := ⟨2, ![1, 2048]⟩
abbrev S256x260 : Shape := ⟨2, ![256, 260]⟩
abbrev S256x515 : Shape := ⟨2, ![256, 515]⟩
abbrev S256x2048 : Shape := ⟨2, ![256, 2048]⟩
abbrev S1024x260 : Shape := ⟨2, ![1024, 260]⟩
abbrev S1x1024 : Shape := ⟨2, ![1, 1024]⟩
abbrev S1024x1024 : Shape := ⟨2, ![1024, 1024]⟩
abbrev S256x1024 : Shape := ⟨2, ![256, 1024]⟩

abbrev nBuf : Space → Nat
  | .hbm => 15
  | .vmem => 18
  | .smem => 0
  | _ => 0

abbrev bufTy : (tb : Table) → Fin (tcTables nBuf tb) → BufTy
  | .hbm, ⟨0, _⟩ => ⟨S256x7, .f32⟩
  | .hbm, ⟨1, _⟩ => ⟨S515x7, .f32⟩
  | .hbm, ⟨2, _⟩ => ⟨S515, .f32⟩
  | .hbm, ⟨3, _⟩ => ⟨S260x515, .f32⟩
  | .hbm, ⟨4, _⟩ => ⟨S260, .f32⟩
  | .hbm, ⟨5, _⟩ => ⟨S65536x260, .f32⟩
  | .hbm, ⟨6, _⟩ => ⟨S65536, .f32⟩
  | .hbm, ⟨7, _⟩ => ⟨S2048x65536, .f32⟩
  | .hbm, ⟨8, _⟩ => ⟨S2048, .f32⟩
  | .hbm, ⟨9, _⟩ => ⟨S1x515, .f32⟩
  | .hbm, ⟨10, _⟩ => ⟨S1x260, .f32⟩
  | .hbm, ⟨11, _⟩ => ⟨S1x65536, .f32⟩
  | .hbm, ⟨12, _⟩ => ⟨S1x2048, .f32⟩
  | .hbm, ⟨13, _⟩ => ⟨S256x260, .f32⟩
  | .hbm, ⟨14, _⟩ => ⟨S256x2048, .f32⟩
  | .local _ .vmem, ⟨0, _⟩ => ⟨S256x7, .f32⟩
  | .local _ .vmem, ⟨1, _⟩ => ⟨S515x7, .f32⟩
  | .local _ .vmem, ⟨2, _⟩ => ⟨S1x515, .f32⟩
  | .local _ .vmem, ⟨3, _⟩ => ⟨S260x515, .f32⟩
  | .local _ .vmem, ⟨4, _⟩ => ⟨S1x260, .f32⟩
  | .local _ .vmem, ⟨5, _⟩ => ⟨S256x260, .f32⟩
  | .local _ .vmem, ⟨6, _⟩ => ⟨S256x260, .f32⟩
  | .local _ .vmem, ⟨7, _⟩ => ⟨S1024x260, .f32⟩
  | .local _ .vmem, ⟨8, _⟩ => ⟨S1024x260, .f32⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S256x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x7 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S515x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x515 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S260x515 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x260 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x260 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![2, 64], ![false, false]⟩

def k1_cond2 (i : grid1.Coords) : BitVec 1 :=
  let arg1 : BitVec 32 := BitVec.ofNat 32 (i 1).val
  let c63_i32 : BitVec 32 := 63#32
  let v24 : BitVec 1 := Scalar.cmpi .eq arg1 c63_i32
  let v25 : BitVec 32 := Scalar.extui v24
  let c0_i32_14 : BitVec 32 := 0#32
  let v26 : BitVec 1 := Scalar.cmpi .ne v25 c0_i32_14
  v26

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S256x260 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1024x260 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S515_S1x515 : S515.ShapeCasts S1x515
  shapeCasts_S260_S1x260 : S260.ShapeCasts S1x260
  shapeCasts_S65536_S1x65536 : S65536.ShapeCasts S1x65536
  shapeCasts_S2048_S1x2048 : S2048.ShapeCasts S1x2048
  inb_S256x7_S256x7_0_0 : ∀ a, (![0, 0] : Fin 2 → Nat) a + S256x7.size a ≤ S256x7.size a
  h_S256x7 : 0 < S256x7.numel
  bitsLt_bf16_f32 : FTy.bits .bf16 < FTy.bits .f32
  inb_S515x7_S515x7_0_0 : ∀ a, (![0, 0] : Fin 2 → Nat) a + S515x7.size a ≤ S515x7.size a
  h_S515x7 : 0 < S515x7.numel
  inb_S1x515_S1x515_0_0 : ∀ a, (![0, 0] : Fin 2 → Nat) a + S1x515.size a ≤ S1x515.size a
  h_S1x515 : 0 < S1x515.numel
  shapeCasts_S1x515_S1x515 : S1x515.ShapeCasts S1x515
  broadcasts_S1x515_S256x515 : S1x515.Broadcasts S256x515
  inb_S260x515_S260x515_0_0 : ∀ a, (![0, 0] : Fin 2 → Nat) a + S260x515.size a ≤ S260x515.size a
  h_S260x515 : 0 < S260x515.numel
  inb_S1x260_S1x260_0_0 : ∀ a, (![0, 0] : Fin 2 → Nat) a + S1x260.size a ≤ S1x260.size a
  h_S1x260 : 0 < S1x260.numel
  shapeCasts_S1x260_S1x260 : S1x260.ShapeCasts S1x260
  broadcasts_S1x260_S256x260 : S1x260.Broadcasts S256x260
  inb_S256x260_S256x260_0_0 : ∀ a, (![0, 0] : Fin 2 → Nat) a + S256x260.size a ≤ S256x260.size a
  h_S256x260 : 0 < S256x260.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S256x260_S256x260 : S256x260.ShapeCasts S256x260
  inb_S1024x260_S1024x260_0_0 : ∀ a, (![0, 0] : Fin 2 → Nat) a + S1024x260.size a ≤ S1024x260.size a
  h_S1024x260 : 0 < S1024x260.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  dot_S256x7_S515x7_S256x515_1_1_0_0_n_n_wf : DotDims.WF S256x7 S515x7 S256x515 [1] [1] [0] [0] [] []
  dot_S256x515_S260x515_S256x260_1_1_0_0_n_n_wf : DotDims.WF S256x515 S260x515 S256x260 [1] [1] [0] [0] [] []
  dot_S256x260_S1024x260_S256x1024_1_1_0_0_n_n_wf : DotDims.WF S256x260 S1024x260 S256x1024 [1] [1] [0] [0] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x7.size a ≤ S256x7.size a
  hwx0_0 : ∀ i : grid0.Coords, EltTy.bits .f32 = 32 ∨ (Rect.block (s := S256x7) S256x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S515x7.size a ≤ S515x7.size a
  hwx0_1 : ∀ i : grid0.Coords, EltTy.bits .f32 = 32 ∨ (Rect.block (s := S515x7) S515x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x515.size a ≤ S1x515.size a
  hwx0_2 : ∀ i : grid0.Coords, EltTy.bits .f32 = 32 ∨ (Rect.block (s := S1x515) S1x515.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S260x515.size a ≤ S260x515.size a
  hwx0_3 : ∀ i : grid0.Coords, EltTy.bits .f32 = 32 ∨ (Rect.block (s := S260x515) S260x515.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x260.size a ≤ S1x260.size a
  hwx0_4 : ∀ i : grid0.Coords, EltTy.bits .f32 = 32 ∨ (Rect.block (s := S1x260) S1x260.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x260.size a ≤ S256x260.size a
  hwx0_5 : ∀ i : grid0.Coords, EltTy.bits .f32 = 32 ∨ (Rect.block (s := S256x260) S256x260.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x260.size a ≤ S256x260.size a
  hwx1_0 : ∀ i : grid1.Coords, EltTy.bits .f32 = 32 ∨ (Rect.block (s := S256x260) S256x260.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x260.size a ≤ S65536x260.size a
  hwx1_1 : ∀ i : grid1.Coords, EltTy.bits .f32 = 32 ∨ (Rect.block (s := S65536x260) S1024x260.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x65536.size a
  hwx1_2 : ∀ i : grid1.Coords, EltTy.bits .f32 = 32 ∨ (Rect.block (s := S1x65536) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S2048x65536.size a
  hwx1_3 : ∀ i : grid1.Coords, EltTy.bits .f32 = 32 ∨ (Rect.block (s := S2048x65536) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x2048.size a
  hwx1_4 : ∀ i : grid1.Coords, EltTy.bits .f32 = 32 ∨ (Rect.block (s := S1x2048) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1024.size a ≤ S256x2048.size a
  hwx1_5 : ∀ i : grid1.Coords, EltTy.bits .f32 = 32 ∨ (Rect.block (s := S256x2048) S256x1024.size (cc1_transform_5 i) (hinb1_5 i)).WholeWords (EltTy.packing .f32)

variable [Facts₀]

def dot_S256x7_S515x7_S256x515_1_1_0_0_n_n : DotDims S256x7 S515x7 S256x515 where
  lhsContracting := [1]
  rhsContracting := [1]
  lhsNonContracting := [0]
  rhsNonContracting := [0]
  lhsBatch := []
  rhsBatch := []
  wf := dot_S256x7_S515x7_S256x515_1_1_0_0_n_n_wf
def dot_S256x515_S260x515_S256x260_1_1_0_0_n_n : DotDims S256x515 S260x515 S256x260 where
  lhsContracting := [1]
  rhsContracting := [1]
  lhsNonContracting := [0]
  rhsNonContracting := [0]
  lhsBatch := []
  rhsBatch := []
  wf := dot_S256x515_S260x515_S256x260_1_1_0_0_n_n_wf
def dot_S256x260_S1024x260_S256x1024_1_1_0_0_n_n : DotDims S256x260 S1024x260 S256x1024 where
  lhsContracting := [1]
  rhsContracting := [1]
  lhsNonContracting := [0]
  rhsNonContracting := [0]
  lhsBatch := []
  rhsBatch := []
  wf := dot_S256x260_S1024x260_S256x1024_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x7.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S515x7.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x515.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S260x515.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x260.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x260.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S256x260.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x260.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S256x7 : Shape := ⟨2, ![256, 7]⟩
abbrev S515x7 : Shape := ⟨2, ![515, 7]⟩
abbrev S515 : Shape := ⟨1, ![515]⟩
abbrev S260x515 : Shape := ⟨2, ![260, 515]⟩
abbrev S260 : Shape := ⟨1, ![260]⟩
abbrev S65536x260 : Shape := ⟨2, ![65536, 260]⟩
abbrev S65536 : Shape := ⟨1, ![65536]⟩
abbrev S2048x65536 : Shape := ⟨2, ![2048, 65536]⟩
abbrev S2048 : Shape := ⟨1, ![2048]⟩
abbrev S7x515 : Shape := ⟨2, ![7, 515]⟩
abbrev S256x515 : Shape := ⟨2, ![256, 515]⟩
abbrev S1x515 : Shape := ⟨2, ![1, 515]⟩
abbrev S_ : Shape := ⟨0, ![]⟩
abbrev S515x260 : Shape := ⟨2, ![515, 260]⟩
abbrev S256x260 : Shape := ⟨2, ![256, 260]⟩
abbrev S1x260 : Shape := ⟨2, ![1, 260]⟩
abbrev S260x65536 : Shape := ⟨2, ![260, 65536]⟩
abbrev S256x65536 : Shape := ⟨2, ![256, 65536]⟩
abbrev S1x65536 : Shape := ⟨2, ![1, 65536]⟩
abbrev S65536x2048 : Shape := ⟨2, ![65536, 2048]⟩
abbrev S256x2048 : Shape := ⟨2, ![256, 2048]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S256x7, .f32⟩
  | .hbm, ⟨1, _⟩ => ⟨S515x7, .f32⟩
  | .hbm, ⟨2, _⟩ => ⟨S515, .f32⟩
  | .hbm, ⟨3, _⟩ => ⟨S260x515, .f32⟩
  | .hbm, ⟨4, _⟩ => ⟨S260, .f32⟩
  | .hbm, ⟨5, _⟩ => ⟨S65536x260, .f32⟩
  | .hbm, ⟨6, _⟩ => ⟨S65536, .f32⟩
  | .hbm, ⟨7, _⟩ => ⟨S2048x65536, .f32⟩
  | .hbm, ⟨8, _⟩ => ⟨S2048, .f32⟩
  | .hbm, ⟨9, _⟩ => ⟨S7x515, .f32⟩
  | .hbm, ⟨10, _⟩ => ⟨S256x515, .f32⟩
  | .hbm, ⟨11, _⟩ => ⟨S1x515, .f32⟩
  | .hbm, ⟨12, _⟩ => ⟨S256x515, .f32⟩
  | .hbm, ⟨13, _⟩ => ⟨S256x515, .f32⟩
  | .hbm, ⟨14, _⟩ => ⟨S_, .f32⟩
  | .hbm, ⟨15, _⟩ => ⟨S256x515, .f32⟩
  | .hbm, ⟨16, _⟩ => ⟨S256x515, .f32⟩
  | .hbm, ⟨17, _⟩ => ⟨S515x260, .f32⟩
  | .hbm, ⟨18, _⟩ => ⟨S256x260, .f32⟩
  | .hbm, ⟨19, _⟩ => ⟨S1x260, .f32⟩
  | .hbm, ⟨20, _⟩ => ⟨S256x260, .f32⟩
  | .hbm, ⟨21, _⟩ => ⟨S256x260, .f32⟩
  | .hbm, ⟨22, _⟩ => ⟨S_, .f32⟩
  | .hbm, ⟨23, _⟩ => ⟨S256x260, .f32⟩
  | .hbm, ⟨24, _⟩ => ⟨S256x260, .f32⟩
  | .hbm, ⟨25, _⟩ => ⟨S260x65536, .f32⟩
  | .hbm, ⟨26, _⟩ => ⟨S256x65536, .f32⟩
  | .hbm, ⟨27, _⟩ => ⟨S1x65536, .f32⟩
  | .hbm, ⟨28, _⟩ => ⟨S256x65536, .f32⟩
  | .hbm, ⟨29, _⟩ => ⟨S256x65536, .f32⟩
  | .hbm, ⟨30, _⟩ => ⟨S_, .f32⟩
  | .hbm, ⟨31, _⟩ => ⟨S256x65536, .f32⟩
  | .hbm, ⟨32, _⟩ => ⟨S256x65536, .f32⟩
  | .hbm, ⟨33, _⟩ => ⟨S65536x2048, .f32⟩
  | .hbm, ⟨34, _⟩ => ⟨S256x2048, .f32⟩
  | .hbm, ⟨35, _⟩ => ⟨S1x2048, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S256x2048, .f32⟩
  | .hbm, ⟨40, _⟩ => ⟨S256x2048, .f32⟩
  | _, _ => ⟨S256x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call2_cst : Ref sig .tc := ⟨.hbm, 30, rfl⟩
abbrev main_call2_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call3_cst : Ref sig .tc := ⟨.hbm, 38, rfl⟩
abbrev main_call3_v0 : Ref sig .tc := ⟨.hbm, 39, rfl⟩
abbrev main_v23 : Ref sig .tc := ⟨.hbm, 40, rfl⟩

abbrev nD : Nat := 1
abbrev τ : Topo := Topo.v7x

variable {F : FTy → Type} [FloatOps F]

class Facts₀ : Prop where
  transposes_S515x7_S7x515_1_0 : S515x7.Transposes [1, 0] S7x515
  bcast_S515_S1x515_1 : S515.BroadcastsInDim S1x515 (![1] : Fin 1 → Fin S1x515.rank)
  bcast_S1x515_S256x515_0_1 : S1x515.BroadcastsInDim S256x515 (![0, 1] : Fin 2 → Fin S256x515.rank)
  bcast_S_S256x515 : S_.BroadcastsInDim S256x515 (![] : Fin 0 → Fin S256x515.rank)
  transposes_S260x515_S515x260_1_0 : S260x515.Transposes [1, 0] S515x260
  bcast_S260_S1x260_1 : S260.BroadcastsInDim S1x260 (![1] : Fin 1 → Fin S1x260.rank)
  bcast_S1x260_S256x260_0_1 : S1x260.BroadcastsInDim S256x260 (![0, 1] : Fin 2 → Fin S256x260.rank)
  bcast_S_S256x260 : S_.BroadcastsInDim S256x260 (![] : Fin 0 → Fin S256x260.rank)
  transposes_S65536x260_S260x65536_1_0 : S65536x260.Transposes [1, 0] S260x65536
  bcast_S65536_S1x65536_1 : S65536.BroadcastsInDim S1x65536 (![1] : Fin 1 → Fin S1x65536.rank)
  bcast_S1x65536_S256x65536_0_1 : S1x65536.BroadcastsInDim S256x65536 (![0, 1] : Fin 2 → Fin S256x65536.rank)
  bcast_S_S256x65536 : S_.BroadcastsInDim S256x65536 (![] : Fin 0 → Fin S256x65536.rank)
  transposes_S2048x65536_S65536x2048_1_0 : S2048x65536.Transposes [1, 0] S65536x2048
  bcast_S2048_S1x2048_1 : S2048.BroadcastsInDim S1x2048 (![1] : Fin 1 → Fin S1x2048.rank)
  bcast_S1x2048_S256x2048_0_1 : S1x2048.BroadcastsInDim S256x2048 (![0, 1] : Fin 2 → Fin S256x2048.rank)
  bcast_S_S256x2048 : S_.BroadcastsInDim S256x2048 (![] : Fin 0 → Fin S256x2048.rank)
  dot_S256x7_S7x515_S256x515_1_0_0_1_n_n_wf : DotDims.WF S256x7 S7x515 S256x515 [1] [0] [0] [1] [] []
  dot_S256x515_S515x260_S256x260_1_0_0_1_n_n_wf : DotDims.WF S256x515 S515x260 S256x260 [1] [0] [0] [1] [] []
  dot_S256x260_S260x65536_S256x65536_1_0_0_1_n_n_wf : DotDims.WF S256x260 S260x65536 S256x65536 [1] [0] [0] [1] [] []
  dot_S256x65536_S65536x2048_S256x2048_1_0_0_1_n_n_wf : DotDims.WF S256x65536 S65536x2048 S256x2048 [1] [0] [0] [1] [] []

variable [Facts₀]

def dot_S256x7_S7x515_S256x515_1_0_0_1_n_n : DotDims S256x7 S7x515 S256x515 where
  lhsContracting := [1]
  rhsContracting := [0]
  lhsNonContracting := [0]
  rhsNonContracting := [1]
  lhsBatch := []
  rhsBatch := []
  wf := dot_S256x7_S7x515_S256x515_1_0_0_1_n_n_wf
def dot_S256x515_S515x260_S256x260_1_0_0_1_n_n : DotDims S256x515 S515x260 S256x260 where
  lhsContracting := [1]
  rhsContracting := [0]
  lhsNonContracting := [0]
  rhsNonContracting := [1]
  lhsBatch := []
  rhsBatch := []
  wf := dot_S256x515_S515x260_S256x260_1_0_0_1_n_n_wf
def dot_S256x260_S260x65536_S256x65536_1_0_0_1_n_n : DotDims S256x260 S260x65536 S256x65536 where
  lhsContracting := [1]
  rhsContracting := [0]
  lhsNonContracting := [0]
  rhsNonContracting := [1]
  lhsBatch := []
  rhsBatch := []
  wf := dot_S256x260_S260x65536_S256x65536_1_0_0_1_n_n_wf
def dot_S256x65536_S65536x2048_S256x2048_1_0_0_1_n_n : DotDims S256x65536 S65536x2048 S256x2048 where
  lhsContracting := [1]
  rhsContracting := [0]
  lhsNonContracting := [0]
  rhsNonContracting := [1]
  lhsBatch := []
  rhsBatch := []
  wf := dot_S256x65536_S65536x2048_S256x2048_1_0_0_1_n_n_wf

class Facts : Prop extends Facts₀ where

variable [Facts]
-- ==== Proof.KI.R0.lean ====
/-
  The first kernel region (the first two layers, one grid point): every window is a whole array, the body loads its five
  inputs and stores the output block once. Stated at a parameter `V`: the core's buffer contents when the region is entered.
-/
import proofs.«174769_j66597762892542_1_alg».proof.Proof.Gen.KernelIdeal.Launch
import proofs.«174769_j66597762892542_1_alg».proof.Proof.Gen.KernelIdeal.Skeleton
import proofs.«174769_j66597762892542_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_0 : Rect S256x7 := Rect.unit (s := S256x7) ![0, 0] S256x7.size inb_S256x7_S256x7_0_0
abbrev r0_1 : Rect S515x7 := Rect.unit (s := S515x7) ![0, 0] S515x7.size inb_S515x7_S515x7_0_0
abbrev r0_2 : Rect S1x515 := Rect.unit (s := S1x515) ![0, 0] S1x515.size inb_S1x515_S1x515_0_0
abbrev r0_3 : Rect S260x515 := Rect.unit (s := S260x515) ![0, 0] S260x515.size inb_S260x515_S260x515_0_0
abbrev r0_4 : Rect S1x260 := Rect.unit (s := S1x260) ![0, 0] S1x260.size inb_S1x260_S1x260_0_0
abbrev r0_5 : Rect S256x260 := Rect.unit (s := S256x260) ![0, 0] S256x260.size inb_S256x260_S256x260_0_0

/-! ## What the body leaves in the output window's buffer -/

/-- The output block after the body, from the input blocks: its one store as a piece. -/
def out0_5 (x0 : Vec F S256x7 .f32) (x1 : Vec F S515x7 .f32) (x2 : Vec F S1x515 .f32) (x3 : Vec F S260x515 .f32) (x4 : Vec F S1x260 .f32) : Vec F S256x260 .f32 :=
  View.canon [⟨r0_5, k0_pay1 (View.ld x0 r0_0) (View.ld x1 r0_1) (View.ld x2 r0_2) (View.ld x3 r0_3) (View.ld x4 r0_4)⟩]

/-- The one store covers the buffer. -/
theorem cover0_5 (p0 : Vec F S256x260 .f32) (y : S256x260.Idx) :
    ∃ pc ∈ ([⟨r0_5, p0⟩] : List (View.Piece (Elt F) S256x260 .f32)), y ∈ pc.1.set :=
  View.cover_of_tiled [⟨r0_5, p0⟩] S256x260.size (by rfl) y

/-! ## The body's triple -/

set_option maxHeartbeats 4000000 in
/-- The body on whole staging memrefs, the inputs at contents `xW` and the output at anything, runs to the continuation
    holding the inputs as they were and the output at `out0_5` of them. -/
theorem sound_kernel0 (c : Dev nD) (E : Set ℕ) (i : grid0.Coords) (arg1 : Memref sig .tc .vmem S256x7 .f32) (harg1 : arg1.IsWhole) (arg2 : Memref sig .tc .vmem S515x7 .f32) (harg2 : arg2.IsWhole) (arg3 : Memref sig .tc .vmem S1x515 .f32) (harg3 : arg3.IsWhole) (arg4 : Memref sig .tc .vmem S260x515 .f32) (harg4 : arg4.IsWhole) (arg5 : Memref sig .tc .vmem S1x260 .f32) (harg5 : arg5.IsWhole) (arg6 : Memref sig .tc .vmem S256x260 .f32) (harg6 : arg6.IsWhole)
    (x0 : Vec F S256x7 .f32) (x1 : Vec F S515x7 .f32) (x2 : Vec F S1x515 .f32) (x3 : Vec F S260x515 .f32) (x4 : Vec F S1x260 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__mlp12_kernel i arg1 harg1 arg2 harg2 arg3 harg3 arg4 harg4 arg5 harg5 arg6 harg6) K := by
  simp only [cc0__mlp12_kernel_eq_skeleton]; unfold cc0__mlp12_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the first pipeline on core `c`: the arrays as the region finds them; after the body each input's
    buffer at its block and the output's at `out0_5` of the input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1Runs.lean ====
/-
  The second kernel region (the fused third and fourth layers) on its 2 × 64 grid: what its three control cases share.
  The grid's second coordinate k selects the case: k = 0 resets the running sum before adding to it, 0 < k < 63 only
  adds, k = 63 adds and then emits the output block. Stated at a parameter `V`: the core's buffer contents when the
  region is entered.
-/
import proofs.«174769_j66597762892542_1_alg».proof.Proof.Gen.KernelIdeal.Launch
import proofs.«174769_j66597762892542_1_alg».proof.Proof.Gen.KernelIdeal.Skeleton
import proofs.«174769_j66597762892542_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The reset condition (k = 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 64). -/
theorem hcond1_0 : ∀ t : Fin cfg1.N, cond1_0 (grid1.coords t) ↔ t.val % 64 = 0 :=
  (by decide +kernel : ∀ t : Fin grid1.N, cond1_0 (grid1.coords t) ↔ t.val % 64 = 0)

/-- The emit condition (k = 63), from the grid coordinates. -/
abbrev cond1_1 (i : grid1.Coords) : Prop := k1_cond2 i = 1#1
/-- It holds at the points ≡ 63 (mod 64). -/
theorem hcond1_1 : ∀ t : Fin cfg1.N, cond1_1 (grid1.coords t) ↔ t.val % 64 = 63 :=
  (by decide +kernel : ∀ t : Fin grid1.N, cond1_1 (grid1.coords t) ↔ t.val % 64 = 63)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where k = 0 the output window is idle and not written back. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
/-- Where 0 < k < 63 likewise. -/
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- Where k = 63 the output window is live. -/
theorem liveAt1_5_C : ∀ t : Fin cfg1.N, ¬cond1_0 (grid1.coords t) → cond1_1 (grid1.coords t) → cfg1.idle 5 (grid1.coords t) = false := by decide +kernel

/-! ## The staging memrefs and the running sum's buffer -/

/-- One staging buffer of the output window, through which its contents are stated. -/
abbrev VO1_5 : View sig .tc .vmem S256x1024 .f32 := (Memref.whole cc1_stg5_0 : Memref sig .tc .vmem S256x1024 .f32).view
abbrev ms1_0 (t : Fin cfg1.N) : Memref sig .tc .vmem S256x260 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x260 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x1024 .f32 := win1_5.stage (cfg1.slots t 5)
abbrev hs1_5 (t : Fin cfg1.N) : (ms1_5 t).IsWhole := hstage1_5 ((cfg1.slots t 5).cast nbuf1_5)
/-- The running sum's buffer: a whole scoped buffer of the kernel's own, passed beside the windows. -/
abbrev scM1_0 : Memref sig .tc .vmem S256x1024 .f32 := Memref.whole cc1_scratch0
/-- The same as a view: what it holds is stated through it. -/
abbrev VS1_0 : View sig .tc .vmem S256x1024 .f32 := scM1_0.view

/-- The class invariant with the other region's staging buffers at anything and the running sum's buffer owned at some
    contents: what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Fr

end
-- ==== Proof.KI.R1RunA.lean ====
/-
  The fused kernel's body run whole in the case k = 0: the running sum is reset, then the tile's product is added; nothing is stored into the output block.
  The pieces each buffer ends with are the witness the run finds.
-/
import proofs.«174769_j66597762892542_1_alg».proof.Proof.KI.R1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs, the inputs at their contents, the body runs to the continuation holding the inputs as they
    were and the stored buffers with their pieces written. -/
noncomputable def kernelRun1_A (c : Dev nD) (i : grid1.Coords) (arg2 : Memref sig .tc .vmem S256x260 .f32) (harg2 : arg2.IsWhole) (arg3 : Memref sig .tc .vmem S1024x260 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (hc0 : cond1_0 i) (hc1 : ¬cond1_1 i)
    (x0 : Vec F S256x260 .f32) (x1 : Vec F S1024x260 .f32) (x2 : Vec F S1x1024 .f32) (x3 : Vec F S1024x1024 .f32) (x4 : Vec F S1x1024 .f32) :
    Σ' (L5 : List (View.Piece (Elt F) S256x1024 .f32)), { LS0 : List (View.Piece (Elt F) S256x1024 .f32) //
      ∀ (xi5 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__fused34_kernel i arg2 harg2 arg3 harg3 arg4 harg4 arg5 harg5 arg6 harg6 arg7 harg7 arg8 harg8) K } := by
  refine ⟨[], ?_, fun xi5 E K => ?run⟩
  case run =>
    simp only [cc1__fused34_kernel_eq_skeleton]; unfold cc1__fused34_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.KI.R1RunB.lean ====
/-
  The fused kernel's body run whole in the case 0 < k < 63: the tile's product is added to the running sum the point before left; nothing is stored into the output block.
  The pieces each buffer ends with are the witness the run finds.
-/
import proofs.«174769_j66597762892542_1_alg».proof.Proof.KI.R1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs, the inputs at their contents, the body runs to the continuation holding the inputs as they
    were and the stored buffers with their pieces written. -/
noncomputable def kernelRun1_B (c : Dev nD) (i : grid1.Coords) (arg2 : Memref sig .tc .vmem S256x260 .f32) (harg2 : arg2.IsWhole) (arg3 : Memref sig .tc .vmem S1024x260 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (hc0 : ¬cond1_0 i) (hc1 : ¬cond1_1 i)
    (x0 : Vec F S256x260 .f32) (x1 : Vec F S1024x260 .f32) (x2 : Vec F S1x1024 .f32) (x3 : Vec F S1024x1024 .f32) (x4 : Vec F S1x1024 .f32) (xs0 : Vec F S256x1024 .f32) :
    Σ' (L5 : List (View.Piece (Elt F) S256x1024 .f32)), { LS0 : List (View.Piece (Elt F) S256x1024 .f32) //
      ∀ (xi5 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__fused34_kernel i arg2 harg2 arg3 harg3 arg4 harg4 arg5 harg5 arg6 harg6 arg7 harg7 arg8 harg8) K } := by
  refine ⟨[], ?_, fun xi5 E K => ?run⟩
  case run =>
    simp only [cc1__fused34_kernel_eq_skeleton]; unfold cc1__fused34_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.KI.R1RunC.lean ====
/-
  The fused kernel's body run whole in the case k = 63: the tile's product is added to the running sum the point before left, and the output block is stored from it.
  The pieces each buffer ends with are the witness the run finds.
-/
import proofs.«174769_j66597762892542_1_alg».proof.Proof.KI.R1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs, the inputs at their contents, the body runs to the continuation holding the inputs as they
    were and the stored buffers with their pieces written. -/
noncomputable def kernelRun1_C (c : Dev nD) (i : grid1.Coords) (arg2 : Memref sig .tc .vmem S256x260 .f32) (harg2 : arg2.IsWhole) (arg3 : Memref sig .tc .vmem S1024x260 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (hc0 : ¬cond1_0 i) (hc1 : cond1_1 i)
    (x0 : Vec F S256x260 .f32) (x1 : Vec F S1024x260 .f32) (x2 : Vec F S1x1024 .f32) (x3 : Vec F S1024x1024 .f32) (x4 : Vec F S1x1024 .f32) (xs0 : Vec F S256x1024 .f32) :
    Σ' (L5 : List (View.Piece (Elt F) S256x1024 .f32)), { LS0 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__fused34_kernel i arg2 harg2 arg3 harg3 arg4 harg4 arg5 harg5 arg6 harg6 arg7 harg7 arg8 harg8) K } := by
  refine ⟨?_, ?_, fun E K => ?run⟩
  case run =>
    simp only [cc1__fused34_kernel_eq_skeleton]; unfold cc1__fused34_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Fr

end
-- ==== Proof.KI.R1.lean ====
/-
  The second kernel region, assembled: what each control case leaves in the output block and in the running sum's buffer,
  the contents after every grid point by recursion on the point (a sum restarted at k = 0 and extended by one tile's
  product at every point, the output block emitted from it at k = 63), the region invariant that carries the running
  sum between points, the proof data and the body obligation. Stated at a parameter `V`: the core's buffer contents
  when the region is entered.
-/
import proofs.«174769_j66597762892542_1_alg».proof.Proof.KI.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case k = 0: the pieces for the running sum's buffer (the reset, then the sum) cover it. -/
theorem scover1_A (c : Dev nD) (i : grid1.Coords) (arg2 : Memref sig .tc .vmem S256x260 .f32) (harg2 : arg2.IsWhole) (arg3 : Memref sig .tc .vmem S1024x260 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (hc0 : cond1_0 i) (hc1 : ¬cond1_1 i)
    (x0 : Vec F S256x260 .f32) (x1 : Vec F S1024x260 .f32) (x2 : Vec F S1x1024 .f32) (x3 : Vec F S1024x1024 .f32) (x4 : Vec F S1x1024 .f32) (y : S256x1024.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S256x1024.size (by sl_kernel_rfl) y

/-- Case 0 < k < 63: the one piece for the running sum's buffer covers it. -/
theorem scover1_B (c : Dev nD) (i : grid1.Coords) (arg2 : Memref sig .tc .vmem S256x260 .f32) (harg2 : arg2.IsWhole) (arg3 : Memref sig .tc .vmem S1024x260 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (hc0 : ¬cond1_0 i) (hc1 : ¬cond1_1 i)
    (x0 : Vec F S256x260 .f32) (x1 : Vec F S1024x260 .f32) (x2 : Vec F S1x1024 .f32) (x3 : Vec F S1024x1024 .f32) (x4 : Vec F S1x1024 .f32) (xs0 : Vec F S256x1024 .f32) (y : S256x1024.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S256x1024.size (by sl_kernel_rfl) y

/-- Case k = 63: the one piece for the running sum's buffer covers it, -/
theorem scover1_C (c : Dev nD) (i : grid1.Coords) (arg2 : Memref sig .tc .vmem S256x260 .f32) (harg2 : arg2.IsWhole) (arg3 : Memref sig .tc .vmem S1024x260 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (hc0 : ¬cond1_0 i) (hc1 : cond1_1 i)
    (x0 : Vec F S256x260 .f32) (x1 : Vec F S1024x260 .f32) (x2 : Vec F S1x1024 .f32) (x3 : Vec F S1024x1024 .f32) (x4 : Vec F S1x1024 .f32) (xs0 : Vec F S256x1024 .f32) (y : S256x1024.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S256x1024.size (by sl_kernel_rfl) y

/-- and the one piece for the output block covers that. -/
theorem cover1_C (c : Dev nD) (i : grid1.Coords) (arg2 : Memref sig .tc .vmem S256x260 .f32) (harg2 : arg2.IsWhole) (arg3 : Memref sig .tc .vmem S1024x260 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (hc0 : ¬cond1_0 i) (hc1 : cond1_1 i)
    (x0 : Vec F S256x260 .f32) (x1 : Vec F S1024x260 .f32) (x2 : Vec F S1x1024 .f32) (x3 : Vec F S1024x1024 .f32) (x4 : Vec F S1x1024 .f32) (xs0 : Vec F S256x1024 .f32) (y : S256x1024.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S256x1024.size (by sl_kernel_rfl) y

/-- What case k = 0 leaves: (a placeholder for the idle output block, the running sum's buffer). -/
def outA (c : Dev nD) (t : Fin cfg1.N) (h0 : t.val % 64 = 0) (h1 : ¬t.val % 64 = 63) : Vec F S256x1024 .f32 × Vec F S256x1024 .f32 :=
  (VO1_5.read (Elt F) (VO1_5.writes (Elt F) VO1_5.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).1),
   VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.1))

/-- What case 0 < k < 63 leaves over the running sum `xs0` of the point before. -/
def outB (c : Dev nD) (t : Fin cfg1.N) (h0 : ¬t.val % 64 = 0) (h1 : ¬t.val % 64 = 63) (xs0 : Vec F S256x1024 .f32) : Vec F S256x1024 .f32 × Vec F S256x1024 .f32 :=
  (VO1_5.read (Elt F) (VO1_5.writes (Elt F) VO1_5.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0).1),
   VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs0).2.1))

/-- What case k = 63 leaves over the running sum `xs0` of the point before. -/
def outC (c : Dev nD) (t : Fin cfg1.N) (h0 : ¬t.val % 64 = 0) (h1 : t.val % 64 = 63) (xs0 : Vec F S256x1024 .f32) : Vec F S256x1024 .f32 × Vec F S256x1024 .f32 :=
  (VO1_5.read (Elt F) (VO1_5.writes (Elt F) VO1_5.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0).1),
   VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs0).2.1))

/-! ## The contents after each point -/

/-- What the output window's staging buffer and the running sum's buffer hold after the body at position `n`: the case
    the position selects, over what position `n - 1` left in the running sum's buffer. -/
def outsAt1 (c : Dev nD) : (n : ℕ) → n < cfg1.N → Vec F S256x1024 .f32 × Vec F S256x1024 .f32
  | 0, hn => outA V c ⟨0, hn⟩ (Nat.zero_mod _) (fun h => by (try dsimp only at h); omega)
  | n + 1, hn =>
    if h0 : (n + 1) % 64 = 0 then
      if h1 : (n + 1) % 64 = 63 then
        False.elim (by omega)
      else
        outA V c ⟨n + 1, hn⟩ h0 h1
    else
      if h1 : (n + 1) % 64 = 63 then
        outC V c ⟨n + 1, hn⟩ h0 h1 (outsAt1 c n (Nat.lt_of_succ_lt hn)).2
      else
        outB V c ⟨n + 1, hn⟩ h0 h1 (outsAt1 c n (Nat.lt_of_succ_lt hn)).2

theorem outsAt1_A (c : Dev nD) (t : Fin cfg1.N) (h0 : t.val % 64 = 0) (h1 : ¬t.val % 64 = 63) :
    outsAt1 V c t.val t.isLt = outA V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 64 = 0) (h1 : ¬t.val % 64 = 63) :
    outsAt1 V c t.val t.isLt = outB V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 64 = 0) (h1 : t.val % 64 = 63) :
    outsAt1 V c t.val t.isLt = outC V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The class invariant's shape with the running sum's buffer at a stated resource: the other region's staging
    buffers at anything, the running sum's buffer, the generator register at some state. -/
abbrev PhiWith (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ S) ∗ (∃ r, prngReg c r))

/-- The region invariant before position `n`: before the first point the class's (the running sum's buffer at
    anything); afterwards the running sum's buffer at what the point before left. -/
def PhiS1 (c : Dev nD) : (n : ℕ) → n ≤ cfg1.N → sProp 𝕄
  | 0, _ => Pipeline.ΦA spec1 c
  | n + 1, hn => PhiWith c (owns (c : Thread nD τ) scM1_0 fullShare ((outsAt1 V c n hn).2))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = PhiWith c (owns (c : Thread nD τ) scM1_0 fullShare ((outsAt1 V c n hn).2)) := rfl

theorem PhiS1_pos (c : Dev nD) (n : ℕ) (h : n ≤ cfg1.N) (hz : n ≠ 0) :
    PhiS1 V c n h = PhiWith c (owns (c : Thread nD τ) scM1_0 fullShare ((outsAt1 V c (n - 1) (by omega)).2)) := by
  cases n with
  | zero => exact absurd rfl hz
  | succ n => rfl

theorem PhiA1_eq' (c : Dev nD) : (Pipeline.ΦA spec1 c : sProp 𝕄) = PhiWith c iprop(∃ d, owns (c : Thread nD τ) scM1_0 fullShare d) := PhiA1_eq c

/-! ## The pipeline's proof data -/

/-- The proof data of the second pipeline on core `c`: the arrays as the region finds them; after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the inputs' memrefs hold their blocks; the position says which case the point is in; the
    invariant hands the body the running sum's buffer at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 64 = 0
  · have h1 : ¬t.val % 64 = 63 := by omega
    rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
    rw [outsAt1_A V c t h0 h1]
    unfold outA; (try dsimp only)
    by_cases hz : t.val = 0
    · rw [PhiS1_castSucc V c t, PhiS1_zero V c _ _ hz, PhiA1_eq']
      iintro ⟨⟨⟨Hb0, Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [Hb0 Hb1 Hb2 Hb3 Hb4 Hb5 HS0 Hg]
      · isplitl [Hb0 Hb1 Hb2 Hb3 Hb4 Hb5 HS0]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          unfold owns; iexists _; isplitr
          swap; · iexact HS0
          ipureintro; exact View.read_writes_of_cover _ _ _ _ _ (scover1_A c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨Hb0, Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [Hb0 Hb1 Hb2 Hb3 Hb4 Hb5 HS0 Hg]
      · isplitl [Hb0 Hb1 Hb2 Hb3 Hb4 Hb5 HS0]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          unfold owns; iexists _; isplitr
          swap; · iexact HS0
          ipureintro; exact View.read_writes_of_cover _ _ _ _ _ (scover1_A c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · by_cases h1 : t.val % 64 = 63
    ·
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold outC; (try dsimp only)
      have hz : t.val ≠ 0 := fun hz => h0 (by rw [hz])
      rw [PhiS1_castSucc V c t, PhiS1_pos V c _ _ hz]
      · iintro ⟨⟨⟨Hb0, Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [Hb0 Hb1 Hb2 Hb3 Hb4 Hb5 HS0 Hg]
        · isplitl [Hb0 Hb1 Hb2 Hb3 Hb4 Hb5 HS0]
          · isplitl [Hb0]; · iexact Hb0
            isplitl [Hb1]; · iexact Hb1
            isplitl [Hb2]; · iexact Hb2
            isplitl [Hb3]; · iexact Hb3
            isplitl [Hb4]; · iexact Hb4
            isplitl [Hb5]; · iexact Hb5
            unfold owns; iexists _; isplitr
            swap; · iexact HS0
            ipureintro; exact View.read_writes_of_cover _ _ _ _ _ (scover1_C c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C c _ _ _ _ _ _ _ _ _ _ _ _ _ _ _ _ _ _ _ _ _ _ _)
    ·
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold outB; (try dsimp only)
      have hz : t.val ≠ 0 := fun hz => h0 (by rw [hz])
      rw [PhiS1_castSucc V c t, PhiS1_pos V c _ _ hz]
      · iintro ⟨⟨⟨Hb0, Hb1, Hb2, Hb3, Hb4, Hb5, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [Hb0 Hb1 Hb2 Hb3 Hb4 Hb5 HS0 Hg]
        · isplitl [Hb0 Hb1 Hb2 Hb3 Hb4 Hb5 HS0]
          · isplitl [Hb0]; · iexact Hb0
            isplitl [Hb1]; · iexact Hb1
            isplitl [Hb2]; · iexact Hb2
            isplitl [Hb3]; · iexact Hb3
            isplitl [Hb4]; · iexact Hb4
            isplitl [Hb5]; · iexact Hb5
            unfold owns; iexists _; isplitr
            swap; · iexact HS0
            ipureintro; exact View.read_writes_of_cover _ _ _ _ _ (scover1_B c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: what the running sum's buffer holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq']
  iintro ⟨⟨Hb0, Hb1, Hb2, Hb3, Hb4, Hb5, HS0⟩, Hg⟩
  isplitl [Hb0 Hb1 Hb2 Hb3 Hb4 Hb5 HS0]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    iexists _; iexact HS0
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Fr

end
-- ==== Proof.KI.Run.lean ====
/-
  The whole program's run: four reshapes on the host, the first kernel region, the second kernel region. The buffer
  contents at each boundary are a fold from the launch memory — after the reshapes; after the first region (its arrays
  at what its write-backs leave); after the second — and every weakly fair execution ends with every unscoped buffer at
  the last boundary's contents. The nine argument arrays read back through the fold to their launch contents.
-/
import proofs.«174769_j66597762892542_1_alg».proof.Proof.KI.R0
import proofs.«174769_j66597762892542_1_alg».proof.Proof.KI.R1
import proofs.«174769_j66597762892542_1_alg».proof.Proof.Gen.KernelIdeal.Regions
import Idealize.ShloMosaic.Lib.Pipeline.RegionsLoop

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the four reshapes (the first region's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- At the second region's exit: its arrays at what the pipeline leaves, every other buffer as entered. -/
def W3 (c : Dev nD) : Valuation τ sig (Elt F) :=
  Pipeline.withArrays spec1 c (W2 m c) fun w => (dat1 (U2 m) c).arrAt w cfg1.N
theorem W3_arr (c : Dev nD) (w : Fin cfg1.W) :
    W3 m c (Proc.devRef .tc (Pipeline.arrRef spec1 w)) = (dat1 (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev U3 : (c : Dev nD) → (b : Ref sig .tc) → Buf (Elt F) ((c : Thread nD τ).loc b) := fun c b => W3 m c b
theorem hF1 (c : Dev nD) (w : Fin cfg1.W) : (dat1 (U2 m) c).arrAt w cfg1.N = U3 m c (Pipeline.arrRef spec1 w) :=
  (W3_arr m c w).symm
theorem hrest1 (c : Dev nD) : ∀ b, b ∉ Finset.univ.image (Pipeline.arrRef spec1) → U3 m c b = U2 m c b :=
  fun b hb => W3_of_ne m c b fun w e => hb (Finset.mem_image.mpr ⟨w, Finset.mem_univ _, e⟩)

/-! ### The arguments end as launched: no reshape writes one, and a region reads it through an input window or not at all -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (U1 m) c).arrAt_in 0 rfl _).trans (A_eq0 (U1 m) c 0))
    _ = m ((c : Thread nD τ).loc main_arg0) := (Gen.V1_of m c main_arg0 (by decide))
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((dat0 (U1 m) c).arrAt_in 1 rfl _).trans (A_eq0 (U1 m) c 1))
    _ = m ((c : Thread nD τ).loc main_arg1) := (Gen.V1_of m c main_arg1 (by decide))
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := (Gen.V1_of m c main_arg2 (by decide))
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := (W2_arr m c 3).trans (((dat0 (U1 m) c).arrAt_in 3 rfl _).trans (A_eq0 (U1 m) c 3))
    _ = m ((c : Thread nD τ).loc main_arg3) := (Gen.V1_of m c main_arg3 (by decide))
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = m ((c : Thread nD τ).loc main_arg4) := (Gen.V1_of m c main_arg4 (by decide))
theorem W3_main_arg5 (c : Dev nD) : W3 m c (Proc.devRef .tc main_arg5) = m ((c : Thread nD τ).loc main_arg5) :=
  calc W3 m c (Proc.devRef .tc main_arg5)
    _ = W2 m c (Proc.devRef .tc main_arg5) := (W3_arr m c 1).trans (((dat1 (U2 m) c).arrAt_in 1 rfl _).trans (A_eq1 (U2 m) c 1))
    _ = W1 m c (Proc.devRef .tc main_arg5) := W2_of_ne m c main_arg5 (by decide)
    _ = m ((c : Thread nD τ).loc main_arg5) := (Gen.V1_of m c main_arg5 (by decide))
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = m ((c : Thread nD τ).loc main_arg6) := (Gen.V1_of m c main_arg6 (by decide))
theorem W3_main_arg7 (c : Dev nD) : W3 m c (Proc.devRef .tc main_arg7) = m ((c : Thread nD τ).loc main_arg7) :=
  calc W3 m c (Proc.devRef .tc main_arg7)
    _ = W2 m c (Proc.devRef .tc main_arg7) := (W3_arr m c 3).trans (((dat1 (U2 m) c).arrAt_in 3 rfl _).trans (A_eq1 (U2 m) c 3))
    _ = W1 m c (Proc.devRef .tc main_arg7) := W2_of_ne m c main_arg7 (by decide)
    _ = m ((c : Thread nD τ).loc main_arg7) := (Gen.V1_of m c main_arg7 (by decide))
theorem W3_main_arg8 (c : Dev nD) : W3 m c (Proc.devRef .tc main_arg8) = m ((c : Thread nD τ).loc main_arg8) :=
  calc W3 m c (Proc.devRef .tc main_arg8)
    _ = W2 m c (Proc.devRef .tc main_arg8) := W3_of_ne m c main_arg8 (by decide)
    _ = W1 m c (Proc.devRef .tc main_arg8) := W2_of_ne m c main_arg8 (by decide)
    _ = m ((c : Thread nD τ).loc main_arg8) := (Gen.V1_of m c main_arg8 (by decide))

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c
abbrev 𝒱T : Variants := Variants.none
/-- No core owes another anything: no level is assigned. -/
abbrev LT : GSem nD τ sig → Finset Unit := fun _ => ∅
abbrev lvT : GSem nD τ sig → Unit → ℕ := fun _ _ => 0
/-- What rides beside the buffers through every segment: the generator register at some state and the core's `owes`, at nothing. -/
abbrev RT (c : Dev nD) : sProp 𝕄 := iprop((∃ r, prngReg c r) ∗ ∃ W, owes (c : Thread nD τ) (0 : CellTallies nD τ sig Unit) W)
/-- The reshapes as a segment from the launch contents. -/
abbrev hseg0 : Pipeline.HostSeg (Name := ℕ) (U := UR sig nD τ) (pcfgs (F := F)) defs₀ 𝒱T LT lvT :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (W0 m) RT

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TN (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the region invariant
    and comes out; nothing is owed; the kernel has no semaphore of its own. -/
def reg0 : Pipeline.RegionSeg (pcfgs (F := F)) adm (pdats m) () defs₀ 𝒱T LT lvT 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LT lvT 0 fun _ _ => rfl
  pre c := iprop(StableHlo.held (c : Thread nD τ) (Pipeline.ucRefs τ sig) (W1 m c) ∗ RT c)
  post c := iprop(StableHlo.held (c : Thread nD τ) (Pipeline.ucRefs τ sig) (W2 m c) ∗ RT c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at the exit contents; the generator register goes into the region invariant
    and comes out; nothing is owed; the kernel has no semaphore of its own. -/
def reg1 : Pipeline.RegionSeg (pcfgs (F := F)) adm (pdats m) () defs₀ 𝒱T LT lvT 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ LT lvT 1 fun _ _ => rfl
  pre c := iprop(StableHlo.held (c : Thread nD τ) (Pipeline.ucRefs τ sig) (W2 m c) ∗ RT c)
  post c := iprop(TN m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (U2 m) c)
    unfold Pipeline.ΦA
    iintro ⟨Hp, -, Hr⟩
    isplitl [Hr]; · iexact Hr
    iexact Hp
  hout c := by
    refine (hout1 (U2 m) c).trans (?_ : (Pipeline.ΦA spec1 c : sProp 𝕄) ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsT : List (Pipeline.Seg (pcfgs (F := F)) adm (pdats m) () defs₀ 𝒱T LT lvT) :=
  [ .host (hseg0 m), .region (reg0 m), .region (reg1 m) ]

theorem main_run (c : Dev nD) : main (F := F) c = Pipeline.Seg.run (segsT m) := (main_chain c).trans (by chain_rfl)

set_option backward.isDefEq.respectTransparency.types false in
/-- At the compiled mesh, from any memory with zero counters, every weakly fair execution of @main terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱T LT lvT m ρ main (segsT m)
    (fun c Q => by rw [main_run m c])
    (by simp only [segsT, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RT c)) (Tₙ := TN m)
    (hch := ⟨fun _ => .rfl, fun _ => .rfl, fun _ => .rfl, fun _ => .rfl⟩)
    (hinit := by
      refine Pipeline.initEach LT lvT fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c),
    (h c _ (mem_uc main_arg6 (by decide))).trans (W3_main_arg6 m c),
    (h c _ (mem_uc main_arg7 (by decide))).trans (W3_main_arg7 m c),
    (h c _ (mem_uc main_arg8 (by decide))).trans (W3_main_arg8 m c)⟩) (run_all m ρ)

end Cert.KernelIdeal.Fr

end
-- ==== Proof.Spec.lean ====
/-
  The network both programs compute, over the extended reals: four dense layers with a rectifier,
  out[b, n] = max (Σ_k h[b, k] · W[n, k] + bias[n]) 0, each layer's weight matrix stored row per output feature.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array read by its two coordinates. -/
abbrev cur2 {n0 n1 : ℕ} (x : (⟨2, ![n0, n1]⟩ : Shape).Idx → EReal) : Fin n0 → Fin n1 → EReal := fun p q => x (ix2 p q)
/-- A rank-1 array read by its coordinate. -/
abbrev cur1 {n : ℕ} (x : (⟨1, ![n]⟩ : Shape).Idx → EReal) : Fin n → EReal := fun p => x (ix1 p)
/-- A one-row array [1, n] read by its column. -/
abbrev row1 {n : ℕ} (x : (⟨2, ![1, n]⟩ : Shape).Idx → EReal) : Fin n → EReal := fun p => x (ix2 (0 : Fin 1) p)

/-- Hidden feature `kk` of tile `a` (64 tiles of 1024 make the 65536 hidden features). -/
abbrev tileIx (a : ℕ) (kk : Fin 1024) (ha : a < 64) : Fin 65536 := ⟨1024 * a + kk.val, by omega⟩
/-- Output column `j` of half `a` (2 halves of 1024 make the 2048 output columns). -/
abbrev halfIx (a : ℕ) (j : Fin 1024) (ha : a < 2) : Fin 2048 := ⟨1024 * a + j.val, by omega⟩

/-- One dense layer with a rectifier: row `b` of `h` against row `n` of `W`, plus the bias, clamped below at zero. -/
def dense {B K N : ℕ} (h : Fin B → Fin K → EReal) (W : Fin N → Fin K → EReal) (bias : Fin N → EReal) (b : Fin B) (n : Fin N) : EReal :=
  max ((∑ k : Fin K, h b k * W n k) + bias n) 0

/-- The four layers composed. -/
def net (x : Fin 256 → Fin 7 → EReal) (W1 : Fin 515 → Fin 7 → EReal) (b1 : Fin 515 → EReal)
    (W2 : Fin 260 → Fin 515 → EReal) (b2 : Fin 260 → EReal) (W3 : Fin 65536 → Fin 260 → EReal) (b3 : Fin 65536 → EReal)
    (W4 : Fin 2048 → Fin 65536 → EReal) (b4 : Fin 2048 → EReal) : Fin 256 → Fin 2048 → EReal :=
  dense (dense (dense (dense x W1 b1) W2 b2) W3 b3) W4 b4

end Cert.Spec

end
-- ==== Proof.KI.Entry.lean ====
/-
  What the two kernel regions find in the buffers they read, over the extended reals: the weight matrices and the input
  as launched, each bias as its one-row reshape, read back at a column as the bias's entry.
-/
import proofs.«174769_j66597762892542_1_alg».proof.Proof.KI.Run
import proofs.«174769_j66597762892542_1_alg».proof.Proof.Spec
import Idealize.ShloMosaic.Lib.Pipeline.Value
import Idealize.ShloMosaic.Lib.ValueIdx
import Idealize.ShloMosaic.Lib.StableHlo.Run

noncomputable section

namespace Cert.KernelIdeal.Val

open Cert.KernelIdeal Cert.KernelIdeal.Gen Cert.KernelIdeal.Fr Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- A vector reshaped to one row, read at a column, is the vector's entry. -/
theorem reshape_row {n : ℕ} (x : (⟨1, ![n]⟩ : Shape).Idx → EReal) (h : (⟨1, ![n]⟩ : Shape).ShapeCasts ⟨2, ![1, n]⟩) (q : Fin n) :
    shapeCast ⟨2, ![1, n]⟩ x h (ix2 (0 : Fin 1) q) = x (ix1 q) :=
  shapeCast_apply x h _ _ (by rw [Shape.rowMajor_val_one, Shape.rowMajor_val_two]; show q.val = 0 * n + q.val; omega)

/-! ## The arguments, by name -/

abbrev aX : Vec Ideal S256x7 .f32 := m ((c : Thread nD τ).loc main_arg0)
abbrev aW1 : Vec Ideal S515x7 .f32 := m ((c : Thread nD τ).loc main_arg1)
abbrev aB1 : Vec Ideal S515 .f32 := m ((c : Thread nD τ).loc main_arg2)
abbrev aW2 : Vec Ideal S260x515 .f32 := m ((c : Thread nD τ).loc main_arg3)
abbrev aB2 : Vec Ideal S260 .f32 := m ((c : Thread nD τ).loc main_arg4)
abbrev aW3 : Vec Ideal S65536x260 .f32 := m ((c : Thread nD τ).loc main_arg5)
abbrev aB3 : Vec Ideal S65536 .f32 := m ((c : Thread nD τ).loc main_arg6)
abbrev aW4 : Vec Ideal S2048x65536 .f32 := m ((c : Thread nD τ).loc main_arg7)
abbrev aB4 : Vec Ideal S2048 .f32 := m ((c : Thread nD τ).loc main_arg8)

/-! ## The first region's entry -/

theorem U1_arg0 : (U1 m c main_arg0 : Vec Ideal S256x7 .f32) = aX m c := Gen.V1_of m c main_arg0 (by decide)
theorem U1_arg1 : (U1 m c main_arg1 : Vec Ideal S515x7 .f32) = aW1 m c := Gen.V1_of m c main_arg1 (by decide)
theorem U1_arg3 : (U1 m c main_arg3 : Vec Ideal S260x515 .f32) = aW2 m c := Gen.V1_of m c main_arg3 (by decide)
theorem U1_v0 : (U1 m c main_v0 : Vec Ideal S1x515 .f32) = shapeCast S1x515 (aB1 m c) shapeCasts_S515_S1x515 := by
  show StableHlo.after hostOps0 (W0 m c) (Proc.devRef .tc main_v0) = _
  after_results
  rfl
theorem U1_v1 : (U1 m c main_v1 : Vec Ideal S1x260 .f32) = shapeCast S1x260 (aB2 m c) shapeCasts_S260_S1x260 := by
  show StableHlo.after hostOps0 (W0 m c) (Proc.devRef .tc main_v1) = _
  after_results
  rfl
theorem U1_v0_row (q : Fin 515) : row1 (U1 m c main_v0 : Vec Ideal S1x515 .f32) q = cur1 (aB1 m c) q := by
  rw [U1_v0]; exact reshape_row _ _ q
theorem U1_v1_row (q : Fin 260) : row1 (U1 m c main_v1 : Vec Ideal S1x260 .f32) q = cur1 (aB2 m c) q := by
  rw [U1_v1]; exact reshape_row _ _ q

/-! ## The second region's entry (but for the first region's result) -/

theorem U2_arg5 : (U2 m c main_arg5 : Vec Ideal S65536x260 .f32) = aW3 m c :=
  (W2_of_ne m c main_arg5 (by decide)).trans (Gen.V1_of m c main_arg5 (by decide))
theorem U2_arg7 : (U2 m c main_arg7 : Vec Ideal S2048x65536 .f32) = aW4 m c :=
  (W2_of_ne m c main_arg7 (by decide)).trans (Gen.V1_of m c main_arg7 (by decide))
theorem U2_v2 : (U2 m c main_v2 : Vec Ideal S1x65536 .f32) = shapeCast S1x65536 (aB3 m c) shapeCasts_S65536_S1x65536 := by
  refine (W2_of_ne m c main_v2 (by decide)).trans ?_
  show StableHlo.after hostOps0 (W0 m c) (Proc.devRef .tc main_v2) = _
  after_results
  rfl
theorem U2_v3 : (U2 m c main_v3 : Vec Ideal S1x2048 .f32) = shapeCast S1x2048 (aB4 m c) shapeCasts_S2048_S1x2048 := by
  refine (W2_of_ne m c main_v3 (by decide)).trans ?_
  show StableHlo.after hostOps0 (W0 m c) (Proc.devRef .tc main_v3) = _
  after_results
  rfl
theorem U2_v2_row (q : Fin 65536) : row1 (U2 m c main_v2 : Vec Ideal S1x65536 .f32) q = cur1 (aB3 m c) q := by
  rw [U2_v2]; exact reshape_row _ _ q
theorem U2_v3_row (q : Fin 2048) : row1 (U2 m c main_v3 : Vec Ideal S1x2048 .f32) q = cur1 (aB4 m c) q := by
  rw [U2_v3]; exact reshape_row _ _ q

end Cert.KernelIdeal.Val

end
-- ==== Proof.KI.Pieces.lean ====
/-
  What each control case of the kernel bodies leaves, as the payloads. Every load and every store of both bodies goes
  through the whole of its buffer (the unit rectangle at zero offsets of the buffer's own sizes), so a load reads the
  buffer's contents and the last covering store leaves its value. First region: the output block is the two-layer value
  of the five input blocks. Second region: at k = 0 the running sum's buffer ends at the tile's product added to the
  zero block the reset stored (read back before the addition); at 0 < k the tile's product added to what the point
  before left; at k = 63 the output block is the last layer's bias and rectifier applied to that sum, read back from
  the running sum's buffer after the addition. Generic in the float instance.
-/
import proofs.«174769_j66597762892542_1_alg».proof.Proof.KI.R0
import proofs.«174769_j66597762892542_1_alg».proof.Proof.KI.R1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The literal zero offsets of a rank-2 rectangle are the constant zero function. -/
theorem hz2 : (![0, 0] : Fin 2 → Nat) = fun _ => 0 := funext fun a => by fin_cases a <;> rfl

/-! ## The first region -/

/-- The one store of the first region's body, through whole-buffer loads, leaves the payload of the input blocks. -/
theorem out0_5_eq (x0 : Vec F S256x7 .f32) (x1 : Vec F S515x7 .f32) (x2 : Vec F S1x515 .f32) (x3 : Vec F S260x515 .f32) (x4 : Vec F S1x260 .f32) :
    out0_5 x0 x1 x2 x3 x4 = k0_pay1 x0 x1 x2 x3 x4 := by
  unfold out0_5
  rw [View.canon_unit_zero hz2]
  simp only [View.ld_unit_zero (S := S256x7) hz2, View.ld_unit_zero (S := S515x7) hz2, View.ld_unit_zero (S := S1x515) hz2, View.ld_unit_zero (S := S260x515) hz2, View.ld_unit_zero (S := S1x260) hz2]

/-! ## The second region -/

/-- Case k = 0: the running sum's buffer is stored twice, the zero block and then the sum over it; the later store
    covers, and its load of the buffer reads the zero block back. -/
theorem outA_snd (c : Dev nD) (t : Fin cfg1.N) (h0 : t.val % 64 = 0) (h1 : ¬t.val % 64 = 63) :
    (outA V c t h0 h1).2 = k1_pay2 (iblk1 V c 0 t) (iblk1 V c 1 t) (iblk1 V c 2 t) (iblk1 V c 3 t) (k1_pay1 (F := F)) := by
  unfold outA
  dsimp only
  rw [View.read_writes_eq_canon _ _ _ (scover1_A c _ _ _ _ _ _ _ _ _ _ _ _ _ _ _ _ _ _ _ _ _ _)]
  unfold kernelRun1_A
  dsimp only
  sl_unfold_words
  rw [View.canon_cons_unit_zero (S := S256x1024) hz2, View.readCov_unit_zero (S := S256x1024) _ hz2]
  simp only [View.readAt_eq_ld, (hs1_0 t).read_unread, (hs1_1 t).read_unread, (hs1_2 t).read_unread, (hs1_3 t).read_unread,
    (hs1_4 t).read_unread, (Memref.isWhole_whole cc1_scratch0).read_unread,
    View.ld_unit_zero (S := S256x260) hz2, View.ld_unit_zero (S := S1024x260) hz2, View.ld_unit_zero (S := S1x1024) hz2,
    View.ld_unit_zero (S := S1024x1024) hz2, View.ld_unit_zero (S := S256x1024) hz2]

/-- Case 0 < k < 63: one store into the running sum's buffer, the tile's product added to what the buffer held. -/
theorem outB_snd (c : Dev nD) (t : Fin cfg1.N) (h0 : ¬t.val % 64 = 0) (h1 : ¬t.val % 64 = 63) (xs0 : Vec F S256x1024 .f32) :
    (outB V c t h0 h1 xs0).2 = k1_pay2 (iblk1 V c 0 t) (iblk1 V c 1 t) (iblk1 V c 2 t) (iblk1 V c 3 t) xs0 := by
  unfold outB
  dsimp only
  rw [View.read_writes_eq_canon _ _ _ (scover1_B c _ _ _ _ _ _ _ _ _ _ _ _ _ _ _ _ _ _ _ _ _ _ _)]
  unfold kernelRun1_B
  dsimp only
  sl_unfold_words
  rw [View.canon_unit_zero (S := S256x1024) hz2]
  simp only [View.readAt_eq_ld, (hs1_0 t).read_unread, (hs1_1 t).read_unread, (hs1_2 t).read_unread, (hs1_3 t).read_unread,
    (hs1_4 t).read_unread, (Memref.isWhole_whole cc1_scratch0).read_unread,
    View.ld_unit_zero (S := S256x260) hz2, View.ld_unit_zero (S := S1024x260) hz2, View.ld_unit_zero (S := S1x1024) hz2,
    View.ld_unit_zero (S := S1024x1024) hz2, View.ld_unit_zero (S := S256x1024) hz2]

/-- Case k = 63, the running sum's buffer: the same one store. -/
theorem outC_snd (c : Dev nD) (t : Fin cfg1.N) (h0 : ¬t.val % 64 = 0) (h1 : t.val % 64 = 63) (xs0 : Vec F S256x1024 .f32) :
    (outC V c t h0 h1 xs0).2 = k1_pay2 (iblk1 V c 0 t) (iblk1 V c 1 t) (iblk1 V c 2 t) (iblk1 V c 3 t) xs0 := by
  unfold outC
  dsimp only
  rw [View.read_writes_eq_canon _ _ _ (scover1_C c _ _ _ _ _ _ _ _ _ _ _ _ _ _ _ _ _ _ _ _ _ _ _)]
  unfold kernelRun1_C
  dsimp only
  sl_unfold_words
  rw [View.canon_unit_zero (S := S256x1024) hz2]
  simp only [View.readAt_eq_ld, (hs1_0 t).read_unread, (hs1_1 t).read_unread, (hs1_2 t).read_unread, (hs1_3 t).read_unread,
    (hs1_4 t).read_unread, (Memref.isWhole_whole cc1_scratch0).read_unread,
    View.ld_unit_zero (S := S256x260) hz2, View.ld_unit_zero (S := S1024x260) hz2, View.ld_unit_zero (S := S1x1024) hz2,
    View.ld_unit_zero (S := S1024x1024) hz2, View.ld_unit_zero (S := S256x1024) hz2]

/-- Case k = 63, the output block: one store, of the sum just stored (read back from the running sum's buffer) and the
    last bias block. -/
theorem outC_fst (c : Dev nD) (t : Fin cfg1.N) (h0 : ¬t.val % 64 = 0) (h1 : t.val % 64 = 63) (xs0 : Vec F S256x1024 .f32) :
    (outC V c t h0 h1 xs0).1 = k1_pay3 (k1_pay2 (iblk1 V c 0 t) (iblk1 V c 1 t) (iblk1 V c 2 t) (iblk1 V c 3 t) xs0) (iblk1 V c 4 t) := by
  unfold outC
  dsimp only
  rw [View.read_writes_eq_canon _ _ _ (cover1_C c _ _ _ _ _ _ _ _ _ _ _ _ _ _ _ _ _ _ _ _ _ _ _)]
  unfold kernelRun1_C
  dsimp only
  sl_unfold_words
  rw [View.canon_unit_zero (S := S256x1024) hz2, View.readCov_unit_zero (S := S256x1024) _ hz2]
  simp only [View.readAt_eq_ld, (hs1_0 t).read_unread, (hs1_1 t).read_unread, (hs1_2 t).read_unread, (hs1_3 t).read_unread,
    (hs1_4 t).read_unread, (Memref.isWhole_whole cc1_scratch0).read_unread,
    View.ld_unit_zero (S := S256x260) hz2, View.ld_unit_zero (S := S1024x260) hz2, View.ld_unit_zero (S := S1x1024) hz2,
    View.ld_unit_zero (S := S1024x1024) hz2, View.ld_unit_zero (S := S256x1024) hz2]

end Cert.KernelIdeal.Fr

end
-- ==== Proof.KI.Blocks.lean ====
/-
  Which entries of its array a window's block holds, and that the output blocks cover the output arrays.
  In the second region the grid point t has coordinates (t / 64, t % 64): the first picks a half of 1024 output columns,
  the second a tile of 1024 hidden features; a block's coordinate in its array is always block index × block extent
  + the coordinate inside the block. In the first region every block is its whole array.
-/
import proofs.«174769_j66597762892542_1_alg».proof.Proof.KI.R0
import proofs.«174769_j66597762892542_1_alg».proof.Proof.KI.R1Runs
import proofs.«174769_j66597762892542_1_alg».proof.Proof.Spec
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Idealize.ShloMosaic.ValueIdx

variable {F : FTy → Type} [FloatOps F]

variable (V : (c : Dev nD) → (b : Ref sig .tc) → Buf (Elt F) ((c : Thread nD τ).loc b))

/-! ## The second region's index maps, decided once over the grid -/

/-- Window 0 (the hidden activations) stays at block (0, 0). -/
theorem idx1_0 : ∀ t : Fin cfg1.N, win1_0.index t (0 : Fin 2) = 0 ∧ win1_0.index t (1 : Fin 2) = 0 :=
  (by decide +kernel : ∀ t : Fin grid1.N, _)
/-- Window 1 (the third layer's weights) is at row tile t % 64. -/
theorem idx1_1 : ∀ t : Fin cfg1.N, win1_1.index t (0 : Fin 2) = t.val % 64 ∧ win1_1.index t (1 : Fin 2) = 0 :=
  (by decide +kernel : ∀ t : Fin grid1.N, _)
/-- Window 2 (the third layer's bias) is at column tile t % 64. -/
theorem idx1_2 : ∀ t : Fin cfg1.N, win1_2.index t (0 : Fin 2) = 0 ∧ win1_2.index t (1 : Fin 2) = t.val % 64 :=
  (by decide +kernel : ∀ t : Fin grid1.N, _)
/-- Window 3 (the fourth layer's weights) is at tile (t / 64, t % 64). -/
theorem idx1_3 : ∀ t : Fin cfg1.N, win1_3.index t (0 : Fin 2) = t.val / 64 ∧ win1_3.index t (1 : Fin 2) = t.val % 64 :=
  (by decide +kernel : ∀ t : Fin grid1.N, _)
/-- Window 4 (the fourth layer's bias) is at column tile t / 64. -/
theorem idx1_4 : ∀ t : Fin cfg1.N, win1_4.index t (0 : Fin 2) = 0 ∧ win1_4.index t (1 : Fin 2) = t.val / 64 :=
  (by decide +kernel : ∀ t : Fin grid1.N, _)
/-- Window 5 (the output) is at column tile t / 64. -/
theorem idx1_5 : ∀ t : Fin cfg1.N, win1_5.index t (0 : Fin 2) = 0 ∧ win1_5.index t (1 : Fin 2) = t.val / 64 :=
  (by decide +kernel : ∀ t : Fin grid1.N, _)

/-! ## The second region's input blocks, entry by entry -/

/-- The hidden activations' block is the whole array. -/
theorem iblk1_0_apply (c : Dev nD) (t : Fin cfg1.N) (b : Fin 256) (i : Fin 260) :
    (iblk1 V c 0 t : Vec F S256x260 .f32) (ix2 b i) = (V c main_v4 : Vec F S256x260 .f32) (ix2 b i) := by
  obtain ⟨e0, e1⟩ := idx1_0 t
  unfold iblk1
  rw [View.read_apply]
  show V c main_v4 (((cfg1.win 0).blk t).view.emb (ix2 b i)) = V c main_v4 (ix2 b i)
  congr 1
  funext a
  apply Fin.ext
  match a with
  | ⟨0, _⟩ => show win1_0.index t (0 : Fin 2) * 256 + 1 * b.val = b.val; omega
  | ⟨1, _⟩ => show win1_0.index t (1 : Fin 2) * 260 + 1 * i.val = i.val; omega

/-- The fourth layer's weight block at point t holds rows of half t / 64 and columns of tile t % 64. -/
theorem iblk1_3_apply (c : Dev nD) (t : Fin cfg1.N) (hm : t.val / 64 < 2) (hk : t.val % 64 < 64) (j kk : Fin 1024) :
    (iblk1 V c 3 t : Vec F S1024x1024 .f32) (ix2 j kk) = (V c main_arg7 : Vec F S2048x65536 .f32) (ix2 (halfIx (t.val / 64) j hm) (tileIx (t.val % 64) kk hk)) := by
  obtain ⟨e0, e1⟩ := idx1_3 t
  unfold iblk1
  rw [View.read_apply]
  show V c main_arg7 (((cfg1.win 3).blk t).view.emb (ix2 j kk)) = V c main_arg7 (ix2 (halfIx (t.val / 64) j hm) (tileIx (t.val % 64) kk hk))
  congr 1
  funext a
  apply Fin.ext
  match a with
  | ⟨0, _⟩ => show win1_3.index t (0 : Fin 2) * 1024 + 1 * j.val = 1024 * (t.val / 64) + j.val; omega
  | ⟨1, _⟩ => show win1_3.index t (1 : Fin 2) * 1024 + 1 * kk.val = 1024 * (t.val % 64) + kk.val; omega

/-- The third layer's weight block at point t holds the rows of tile t % 64. -/
theorem iblk1_1_apply (c : Dev nD) (t : Fin cfg1.N) (hk : t.val % 64 < 64) (kk : Fin 1024) (i : Fin 260) :
    (iblk1 V c 1 t : Vec F S1024x260 .f32) (ix2 kk i) = (V c main_arg5 : Vec F S65536x260 .f32) (ix2 (tileIx (t.val % 64) kk hk) i) := by
  obtain ⟨e0, e1⟩ := idx1_1 t
  unfold iblk1
  rw [View.read_apply]
  show V c main_arg5 (((cfg1.win 1).blk t).view.emb (ix2 kk i)) = V c main_arg5 (ix2 (tileIx (t.val % 64) kk hk) i)
  congr 1
  funext a
  apply Fin.ext
  match a with
  | ⟨0, _⟩ => show win1_1.index t (0 : Fin 2) * 1024 + 1 * kk.val = 1024 * (t.val % 64) + kk.val; omega
  | ⟨1, _⟩ => show win1_1.index t (1 : Fin 2) * 260 + 1 * i.val = i.val; omega

/-- The third layer's bias block at point t holds the columns of tile t % 64. -/
theorem iblk1_2_apply (c : Dev nD) (t : Fin cfg1.N) (hk : t.val % 64 < 64) (kk : Fin 1024) :
    (iblk1 V c 2 t : Vec F S1x1024 .f32) (ix2 (0 : Fin 1) kk) = (V c main_v2 : Vec F S1x65536 .f32) (ix2 (0 : Fin 1) (tileIx (t.val % 64) kk hk)) := by
  obtain ⟨e0, e1⟩ := idx1_2 t
  unfold iblk1
  rw [View.read_apply]
  show V c main_v2 (((cfg1.win 2).blk t).view.emb (ix2 (0 : Fin 1) kk)) = V c main_v2 (ix2 (0 : Fin 1) (tileIx (t.val % 64) kk hk))
  congr 1
  funext a
  apply Fin.ext
  match a with
  | ⟨0, _⟩ => show win1_2.index t (0 : Fin 2) * 1 + 1 * (0 : Fin 1).val = (0 : Fin 1).val; omega
  | ⟨1, _⟩ => show win1_2.index t (1 : Fin 2) * 1024 + 1 * kk.val = 1024 * (t.val % 64) + kk.val; omega

/-- The fourth layer's bias block at point t holds the columns of half t / 64. -/
theorem iblk1_4_apply (c : Dev nD) (t : Fin cfg1.N) (hm : t.val / 64 < 2) (j : Fin 1024) :
    (iblk1 V c 4 t : Vec F S1x1024 .f32) (ix2 (0 : Fin 1) j) = (V c main_v3 : Vec F S1x2048 .f32) (ix2 (0 : Fin 1) (halfIx (t.val / 64) j hm)) := by
  obtain ⟨e0, e1⟩ := idx1_4 t
  unfold iblk1
  rw [View.read_apply]
  show V c main_v3 (((cfg1.win 4).blk t).view.emb (ix2 (0 : Fin 1) j)) = V c main_v3 (ix2 (0 : Fin 1) (halfIx (t.val / 64) j hm))
  congr 1
  funext a
  apply Fin.ext
  match a with
  | ⟨0, _⟩ => show win1_4.index t (0 : Fin 2) * 1 + 1 * (0 : Fin 1).val = (0 : Fin 1).val; omega
  | ⟨1, _⟩ => show win1_4.index t (1 : Fin 2) * 1024 + 1 * j.val = 1024 * (t.val / 64) + j.val; omega

/-! ## The first region: every block is its whole array -/

/-- The first region's index maps, decided over its one-point grid: every window stays at block (0, 0). -/
theorem idx0_0 : ∀ t : Fin cfg0.N, win0_0.index t (0 : Fin 2) = 0 ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)

/-- The input's block is the whole input. -/
theorem iblk0_0_eq (c : Dev nD) (t : Fin cfg0.N) : (iblk0 V c 0 t : Vec F S256x7 .f32) = (V c main_arg0 : Vec F S256x7 .f32) := by
  obtain ⟨e0, e1⟩ := idx0_0 t
  funext y
  unfold iblk0
  rw [View.read_apply]
  show V c main_arg0 (((cfg0.win 0).blk t).view.emb y) = V c main_arg0 y
  congr 1
  funext a
  apply Fin.ext
  match a with
  | ⟨0, _⟩ => show win0_0.index t (0 : Fin 2) * 256 + 1 * (y 0).val = (y 0).val; omega
  | ⟨1, _⟩ => show win0_0.index t (1 : Fin 2) * 7 + 1 * (y 1).val = (y 1).val; omega

/-- The first layer's weight block is the whole matrix. -/
theorem iblk0_1_eq (c : Dev nD) (t : Fin cfg0.N) : (iblk0 V c 1 t : Vec F S515x7 .f32) = (V c main_arg1 : Vec F S515x7 .f32) := by
  obtain ⟨e0, e1⟩ := idx0_1 t
  funext y
  unfold iblk0
  rw [View.read_apply]
  show V c main_arg1 (((cfg0.win 1).blk t).view.emb y) = V c main_arg1 y
  congr 1
  funext a
  apply Fin.ext
  match a with
  | ⟨0, _⟩ => show win0_1.index t (0 : Fin 2) * 515 + 1 * (y 0).val = (y 0).val; omega
  | ⟨1, _⟩ => show win0_1.index t (1 : Fin 2) * 7 + 1 * (y 1).val = (y 1).val; omega

/-- The first layer's bias block is the whole row. -/
theorem iblk0_2_eq (c : Dev nD) (t : Fin cfg0.N) : (iblk0 V c 2 t : Vec F S1x515 .f32) = (V c main_v0 : Vec F S1x515 .f32) := by
  obtain ⟨e0, e1⟩ := idx0_2 t
  funext y
  unfold iblk0
  rw [View.read_apply]
  show V c main_v0 (((cfg0.win 2).blk t).view.emb y) = V c main_v0 y
  congr 1
  funext a
  apply Fin.ext
  match a with
  | ⟨0, _⟩ => show win0_2.index t (0 : Fin 2) * 1 + 1 * (y 0).val = (y 0).val; omega
  | ⟨1, _⟩ => show win0_2.index t (1 : Fin 2) * 515 + 1 * (y 1).val = (y 1).val; omega

/-- The second layer's weight block is the whole matrix. -/
theorem iblk0_3_eq (c : Dev nD) (t : Fin cfg0.N) : (iblk0 V c 3 t : Vec F S260x515 .f32) = (V c main_arg3 : Vec F S260x515 .f32) := by
  obtain ⟨e0, e1⟩ := idx0_3 t
  funext y
  unfold iblk0
  rw [View.read_apply]
  show V c main_arg3 (((cfg0.win 3).blk t).view.emb y) = V c main_arg3 y
  congr 1
  funext a
  apply Fin.ext
  match a with
  | ⟨0, _⟩ => show win0_3.index t (0 : Fin 2) * 260 + 1 * (y 0).val = (y 0).val; omega
  | ⟨1, _⟩ => show win0_3.index t (1 : Fin 2) * 515 + 1 * (y 1).val = (y 1).val; omega

/-- The second layer's bias block is the whole row. -/
theorem iblk0_4_eq (c : Dev nD) (t : Fin cfg0.N) : (iblk0 V c 4 t : Vec F S1x260 .f32) = (V c main_v1 : Vec F S1x260 .f32) := by
  obtain ⟨e0, e1⟩ := idx0_4 t
  funext y
  unfold iblk0
  rw [View.read_apply]
  show V c main_v1 (((cfg0.win 4).blk t).view.emb y) = V c main_v1 y
  congr 1
  funext a
  apply Fin.ext
  match a with
  | ⟨0, _⟩ => show win0_4.index t (0 : Fin 2) * 1 + 1 * (y 0).val = (y 0).val; omega
  | ⟨1, _⟩ => show win0_4.index t (1 : Fin 2) * 260 + 1 * (y 1).val = (y 1).val; omega

/-! ## The output blocks: what they hold of a whole-array function, and that they cover the arrays -/

/-- What the output block of region 1 holds of a whole-array function G. -/
theorem blk1_5_read (G : Vec F S256x2048 .f32) (t : Fin cfg1.N) (hm : t.val / 64 < 2) (b : Fin 256) (j : Fin 1024) :
    (((cfg1.win 5).blk t).view.read (Elt F) G : Vec F S256x1024 .f32) (ix2 b j) = G (ix2 b (halfIx (t.val / 64) j hm)) := by
  obtain ⟨e0, e1⟩ := idx1_5 t
  rw [View.read_apply]
  show G (((cfg1.win 5).blk t).view.emb (ix2 b j)) = G (ix2 b (halfIx (t.val / 64) j hm))
  congr 1
  funext a
  apply Fin.ext
  match a with
  | ⟨0, _⟩ => show win1_5.index t (0 : Fin 2) * 256 + 1 * b.val = b.val; omega
  | ⟨1, _⟩ => show win1_5.index t (1 : Fin 2) * 1024 + 1 * j.val = 1024 * (t.val / 64) + j.val; omega

/-- An index of the output array is in point t's block iff each coordinate is in the block's range on its axis. -/
theorem mem_blk1_5 (t : Fin cfg1.N) (i : S256x2048.Idx) :
    i ∈ ((cfg1.win 5).blk t).view.set ↔ ∀ a : Fin 2, win1_5.index t a * S256x1024.size a ≤ (i a).val ∧ (i a).val < win1_5.index t a * S256x1024.size a + S256x1024.size a := by
  show i ∈ ((View.whole main_v5).slice (win1_5.rect t)).set ↔ _
  rw [View.set_slice_whole, Rect.mem_set_unit]
  exact Iff.rfl

/-- Every entry of the output is in a block that is written back: column n of half mm at the point 64·mm + 63. -/
theorem cover1_5 (i : S256x2048.Idx) : ∃ t : Fin cfg1.N, (cfg1.win 5).flush t = true ∧ i ∈ ((cfg1.win 5).blk t).view.set := by
  have hi0 : (i 0).val < 256 := (i 0).isLt
  have hi1 : (i 1).val < 2048 := (i 1).isLt
  obtain ⟨t, ht⟩ : ∃ t : Fin cfg1.N, t.val = 64 * ((i 1).val / 1024) + 63 :=
    ⟨⟨64 * ((i 1).val / 1024) + 63, by show _ < 128; omega⟩, rfl⟩
  obtain ⟨e0, e1⟩ := idx1_5 t
  refine ⟨t, (flush1_5 t).mpr (by omega), ?_⟩
  rw [mem_blk1_5]
  intro a
  match a with
  | ⟨0, _⟩ => show win1_5.index t (0 : Fin 2) * 256 ≤ (i 0).val ∧ (i 0).val < win1_5.index t (0 : Fin 2) * 256 + 256; omega
  | ⟨1, _⟩ => show win1_5.index t (1 : Fin 2) * 1024 ≤ (i 1).val ∧ (i 1).val < win1_5.index t (1 : Fin 2) * 1024 + 1024; omega

/-- The output block of region 0 is the whole of a whole-array function G. -/
theorem blk0_5_read (G : Vec F S256x260 .f32) (t : Fin cfg0.N) : (((cfg0.win 5).blk t).view.read (Elt F) G : Vec F S256x260 .f32) = G := by
  obtain ⟨e0, e1⟩ := idx0_5 t
  funext y
  rw [View.read_apply]
  show G (((cfg0.win 5).blk t).view.emb y) = G y
  congr 1
  funext a
  apply Fin.ext
  match a with
  | ⟨0, _⟩ => show win0_5.index t (0 : Fin 2) * 256 + 1 * (y 0).val = (y 0).val; omega
  | ⟨1, _⟩ => show win0_5.index t (1 : Fin 2) * 260 + 1 * (y 1).val = (y 1).val; omega

/-- An index of region 0's output array is in point t's block iff each coordinate is in the block's range on its axis. -/
theorem mem_blk0_5 (t : Fin cfg0.N) (i : S256x260.Idx) :
    i ∈ ((cfg0.win 5).blk t).view.set ↔ ∀ a : Fin 2, win0_5.index t a * S256x260.size a ≤ (i a).val ∧ (i a).val < win0_5.index t a * S256x260.size a + S256x260.size a := by
  show i ∈ ((View.whole main_v4).slice (win0_5.rect t)).set ↔ _
  rw [View.set_slice_whole, Rect.mem_set_unit]
  exact Iff.rfl

/-- Every entry of region 0's output is in the one block, which is written back. -/
theorem cover0_5arr (i : S256x260.Idx) : ∃ t : Fin cfg0.N, (cfg0.win 5).flush t = true ∧ i ∈ ((cfg0.win 5).blk t).view.set := by
  have hi0 : (i 0).val < 256 := (i 0).isLt
  have hi1 : (i 1).val < 260 := (i 1).isLt
  obtain ⟨t, ht⟩ : ∃ t : Fin cfg0.N, t.val = 0 := ⟨⟨0, by show 0 < 1; omega⟩, rfl⟩
  obtain ⟨e0, e1⟩ := idx0_5 t
  refine ⟨t, flush0_5 t, ?_⟩
  rw [mem_blk0_5]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 260 ≤ (i 1).val ∧ (i 1).val < win0_5.index t (1 : Fin 2) * 260 + 260; omega

end Cert.KernelIdeal.Fr

end
-- ==== Proof.KI.Pay.lean ====
/-
  The kernel's four payloads read at an index, over the extended reals: the reset of the running sum is zero, one
  step adds a dense layer's output times a weight tile, the last step adds the bias and clamps at zero, and the first
  region's payload is two dense layers composed.
-/
import proofs.«174769_j66597762892542_1_alg».proof.Proof.Gen.KernelIdeal.Skeleton
import proofs.«174769_j66597762892542_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Cert.Spec Idealize.ShloMosaic Idealize.ShloMosaic.ValueIdx

/-- The scalar zero word read as an extended real. -/
theorem scalar_zero : (Scalar.ofBits (F := Ideal) .f32 0x00000000#32 : EReal) = 0 := Ideal.ofBits_zero_f32

/-- The reset value of the running sum is zero everywhere. -/
theorem pay1_apply (b : Fin 256) (j : Fin 1024) : k1_pay1 (F := Ideal) (ix2 b j) = 0 := by
  unfold k1_pay1
  refine (congrFun (shapeCast_self _ _) _).trans ?_
  exact scalar_zero

/-- The last step: the running sum plus the bias row, clamped below at zero. -/
theorem pay3_apply (v27 : Vec Ideal S256x1024 .f32) (v28 : Vec Ideal S1x1024 .f32) (b : Fin 256) (j : Fin 1024) :
    k1_pay3 v27 v28 (ix2 b j) = max (v27 (ix2 b j) + v28 (ix2 (0 : Fin 1) j)) 0 := by
  unfold k1_pay3
  have e1 : broadcastTo S256x1024 (shapeCast S1x1024 v28 shapeCasts_S1x1024_S1x1024) broadcasts_S1x1024_S256x1024 (ix2 b j)
      = v28 (ix2 (0 : Fin 1) j) := by
    refine (broadcastTo_1b_ab_apply _ _ b j).trans ?_
    exact congrFun (shapeCast_self _ _) _
  show max (v27 (ix2 b j) + broadcastTo S256x1024 (shapeCast S1x1024 v28 shapeCasts_S1x1024_S1x1024) broadcasts_S1x1024_S256x1024 (ix2 b j))
      (Scalar.ofBits (F := Ideal) .f32 0x00000000#32 : EReal) = _
  rw [e1, scalar_zero]

/-! ### The product of the second hidden layer with a tile of the third layer's weights -/

theorem lhs_l3_0 (i : S256x1024.Idx) (q : dot_S256x260_S1024x260_S256x1024_1_1_0_0_n_n.contr.Idx) :
    (dot_S256x260_S1024x260_S256x1024_1_1_0_0_n_n.lhsIdx i q 0).val = (i 0).val := by
  unfold DotDims.lhsIdx
  rw [dif_neg (show ¬(0 : Fin S256x260.rank) ∈ dot_S256x260_S1024x260_S256x1024_1_1_0_0_n_n.lhsBatch by decide), dif_pos (show (0 : Fin S256x260.rank) ∈ dot_S256x260_S1024x260_S256x1024_1_1_0_0_n_n.lhsNonContracting by decide)]
  rfl
theorem lhs_l3_1 (i : S256x1024.Idx) (q : dot_S256x260_S1024x260_S256x1024_1_1_0_0_n_n.contr.Idx) :
    (dot_S256x260_S1024x260_S256x1024_1_1_0_0_n_n.lhsIdx i q 1).val = (q ⟨0, by decide⟩).val :=
  dot_S256x260_S1024x260_S256x1024_1_1_0_0_n_n.lhsIdx_val_of_single rfl i q
theorem rhs_l3_0 (i : S256x1024.Idx) (q : dot_S256x260_S1024x260_S256x1024_1_1_0_0_n_n.contr.Idx) :
    (dot_S256x260_S1024x260_S256x1024_1_1_0_0_n_n.rhsIdx i q 0).val = (i 1).val := by
  unfold DotDims.rhsIdx
  rw [dif_neg (show ¬(0 : Fin S1024x260.rank) ∈ dot_S256x260_S1024x260_S256x1024_1_1_0_0_n_n.rhsBatch by decide), dif_pos (show (0 : Fin S1024x260.rank) ∈ dot_S256x260_S1024x260_S256x1024_1_1_0_0_n_n.rhsNonContracting by decide)]
  rfl
theorem rhs_l3_1 (i : S256x1024.Idx) (q : dot_S256x260_S1024x260_S256x1024_1_1_0_0_n_n.contr.Idx) :
    (dot_S256x260_S1024x260_S256x1024_1_1_0_0_n_n.rhsIdx i q 1).val = (q ⟨0, by decide⟩).val :=
  dot_S256x260_S1024x260_S256x1024_1_1_0_0_n_n.rhsIdx_val_of_single rfl i q

/-- Into the zero accumulator, entry (p, n) of the product is row p of the left operand against row n of the right. -/
theorem matmul_l3 {φ₁ φ₂ : FTy} (x : FVec Ideal S256x260 φ₁) (w : FVec Ideal S1024x260 φ₂) (p : Fin 256) (n : Fin 1024) :
    matmul dot_S256x260_S1024x260_S256x1024_1_1_0_0_n_n none x w (constant (F := Ideal) S256x1024 .f32 0x00000000#32) (ix2 p n)
      = ∑ k : Fin 260, x (ix2 p k) * w (ix2 n k) := by
  refine (Ideal.matmul_constant_zero_apply dot_S256x260_S1024x260_S256x1024_1_1_0_0_n_n none x w (ix2 p n)).trans ?_
  rw [← Equiv.sum_comp (contrEquiv1 dot_S256x260_S1024x260_S256x1024_1_1_0_0_n_n 260 rfl rfl).symm]
  refine Finset.sum_congr rfl fun k _ => ?_
  have hk := contrEquiv1_symm_val dot_S256x260_S1024x260_S256x1024_1_1_0_0_n_n 260 rfl rfl k
  have el : dot_S256x260_S1024x260_S256x1024_1_1_0_0_n_n.lhsIdx (ix2 p n) ((contrEquiv1 dot_S256x260_S1024x260_S256x1024_1_1_0_0_n_n 260 rfl rfl).symm k) = ix2 p k := funext fun a => Fin.ext (by
    match a with
    | ⟨0, _⟩ => exact lhs_l3_0 _ _
    | ⟨1, _⟩ => exact (lhs_l3_1 _ _).trans hk)
  have er : dot_S256x260_S1024x260_S256x1024_1_1_0_0_n_n.rhsIdx (ix2 p n) ((contrEquiv1 dot_S256x260_S1024x260_S256x1024_1_1_0_0_n_n 260 rfl rfl).symm k) = ix2 n k := funext fun a => Fin.ext (by
    match a with
    | ⟨0, _⟩ => exact rhs_l3_0 _ _
    | ⟨1, _⟩ => exact (rhs_l3_1 _ _).trans hk)
  rw [el, er]

/-! ### The product of the third hidden layer's tile with a tile of the fourth layer's weights -/

theorem lhs_l4_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhs_l4_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhs_l4_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhs_l4_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- Into the zero accumulator, entry (p, n) of the product is row p of the left operand against row n of the right. -/
theorem matmul_l4 {φ₁ φ₂ : FTy} (x : FVec Ideal S256x1024 φ₁) (w : FVec Ideal S1024x1024 φ₂) (p : Fin 256) (n : Fin 1024) :
    matmul dot_S256x1024_S1024x1024_S256x1024_1_1_0_0_n_n none x w (constant (F := Ideal) S256x1024 .f32 0x00000000#32) (ix2 p n)
      = ∑ k : Fin 1024, x (ix2 p k) * w (ix2 n k) := by
  refine (Ideal.matmul_constant_zero_apply dot_S256x1024_S1024x1024_S256x1024_1_1_0_0_n_n none x w (ix2 p n)).trans ?_
  rw [← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p n) ((contrEquiv1 dot_S256x1024_S1024x1024_S256x1024_1_1_0_0_n_n 1024 rfl rfl).symm k) = ix2 p k := funext fun a => Fin.ext (by
    match a with
    | ⟨0, _⟩ => exact lhs_l4_0 _ _
    | ⟨1, _⟩ => exact (lhs_l4_1 _ _).trans hk)
  have er : dot_S256x1024_S1024x1024_S256x1024_1_1_0_0_n_n.rhsIdx (ix2 p n) ((contrEquiv1 dot_S256x1024_S1024x1024_S256x1024_1_1_0_0_n_n 1024 rfl rfl).symm k) = ix2 n k := funext fun a => Fin.ext (by
    match a with
    | ⟨0, _⟩ => exact rhs_l4_0 _ _
    | ⟨1, _⟩ => exact (rhs_l4_1 _ _).trans hk)
  rw [el, er]

/-- The third dense layer as the kernel spells it: the product into a zero accumulator, the bias row broadcast down the
    rows, the maximum with the zero splat. -/
def kLayer3 (h : Vec Ideal S256x260 .f32) (W : Vec Ideal S1024x260 .f32) (bias : Vec Ideal S1x1024 .f32) : FVec Ideal S256x1024 .f32 :=
  maximumf
    (addf (matmul dot_S256x260_S1024x260_S256x1024_1_1_0_0_n_n none (truncf .bf16 h bitsLt_bf16_f32) (truncf .bf16 W bitsLt_bf16_f32) (constant (F := Ideal) S256x1024 .f32 0x00000000#32))
      (broadcastTo S256x1024 (shapeCast S1x1024 bias shapeCasts_S1x1024_S1x1024) broadcasts_S1x1024_S256x1024))
    (broadcast S256x1024 (Scalar.ofBits (F := Ideal) .f32 0x00000000#32))

/-- Read at (p, n) it is the specification's dense layer. -/
theorem kLayer3_apply (h : Vec Ideal S256x260 .f32) (W : Vec Ideal S1024x260 .f32) (bias : Vec Ideal S1x1024 .f32) (p : Fin 256) (n : Fin 1024) :
    kLayer3 h W bias (ix2 p n) = dense (cur2 h) (cur2 W) (row1 bias) p n := by
  have eb : broadcastTo S256x1024 (shapeCast S1x1024 bias shapeCasts_S1x1024_S1x1024) broadcasts_S1x1024_S256x1024 (ix2 p n)
      = bias (ix2 (0 : Fin 1) n) := by
    refine (broadcastTo_1b_ab_apply _ _ p n).trans ?_
    exact congrFun (shapeCast_self _ _) _
  have em := matmul_l3 (truncf .bf16 h bitsLt_bf16_f32) (truncf .bf16 W bitsLt_bf16_f32) p n
  unfold kLayer3 dense
  show max (matmul dot_S256x260_S1024x260_S256x1024_1_1_0_0_n_n none (truncf .bf16 h bitsLt_bf16_f32) (truncf .bf16 W bitsLt_bf16_f32) (constant (F := Ideal) S256x1024 .f32 0x00000000#32) (ix2 p n)
        + broadcastTo S256x1024 (shapeCast S1x1024 bias shapeCasts_S1x1024_S1x1024) broadcasts_S1x1024_S256x1024 (ix2 p n))
      (Scalar.ofBits (F := Ideal) .f32 0x00000000#32 : EReal) = _
  rw [em, eb, scalar_zero]
  rfl

/-- One step of the second region: the running sum plus the third layer's tile against the fourth layer's weight tile. -/
theorem pay2_apply (v3 : Vec Ideal S256x260 .f32) (v6 : Vec Ideal S1024x260 .f32) (v9 : Vec Ideal S1x1024 .f32) (v16 : Vec Ideal S1024x1024 .f32) (v19 : Vec Ideal S256x1024 .f32) (b : Fin 256) (j : Fin 1024) :
    k1_pay2 v3 v6 v9 v16 v19 (ix2 b j) = v19 (ix2 b j) + ∑ kk : Fin 1024, dense (cur2 v3) (cur2 v6) (row1 v9) b kk * v16 (ix2 j kk) := by
  unfold k1_pay2
  refine (congrFun (shapeCast_self _ _) _).trans ?_
  have e3 : shapeCast S256x260 v3 shapeCasts_S256x260_S256x260 = v3 := shapeCast_self _ _
  have em := matmul_l4 (truncf .bf16 (kLayer3 v3 v6 v9) bitsLt_bf16_f32) (truncf .bf16 v16 bitsLt_bf16_f32) b j
  show v19 (ix2 b j) + matmul dot_S256x1024_S1024x1024_S256x1024_1_1_0_0_n_n none
      (truncf .bf16 (kLayer3 (shapeCast S256x260 v3 shapeCasts_S256x260_S256x260) v6 v9) bitsLt_bf16_f32)
      (truncf .bf16 v16 bitsLt_bf16_f32) (constant (F := Ideal) S256x1024 .f32 0x00000000#32) (ix2 b j) = _
  rw [e3, em]
  refine congrArg (v19 (ix2 b j) + ·) (Finset.sum_congr rfl fun kk _ => ?_)
  show kLayer3 v3 v6 v9 (ix2 b kk) * v16 (ix2 j kk) = _
  rw [kLayer3_apply]

/-! ### The product of the input with the first layer's weights -/

theorem lhs_l1_0 (i : S256x515.Idx) (q : dot_S256x7_S515x7_S256x515_1_1_0_0_n_n.contr.Idx) :
    (dot_S256x7_S515x7_S256x515_1_1_0_0_n_n.lhsIdx i q 0).val = (i 0).val := by
  unfold DotDims.lhsIdx
  rw [dif_neg (show ¬(0 : Fin S256x7.rank) ∈ dot_S256x7_S515x7_S256x515_1_1_0_0_n_n.lhsBatch by decide), dif_pos (show (0 : Fin S256x7.rank) ∈ dot_S256x7_S515x7_S256x515_1_1_0_0_n_n.lhsNonContracting by decide)]
  rfl
theorem lhs_l1_1 (i : S256x515.Idx) (q : dot_S256x7_S515x7_S256x515_1_1_0_0_n_n.contr.Idx) :
    (dot_S256x7_S515x7_S256x515_1_1_0_0_n_n.lhsIdx i q 1).val = (q ⟨0, by decide⟩).val :=
  dot_S256x7_S515x7_S256x515_1_1_0_0_n_n.lhsIdx_val_of_single rfl i q
theorem rhs_l1_0 (i : S256x515.Idx) (q : dot_S256x7_S515x7_S256x515_1_1_0_0_n_n.contr.Idx) :
    (dot_S256x7_S515x7_S256x515_1_1_0_0_n_n.rhsIdx i q 0).val = (i 1).val := by
  unfold DotDims.rhsIdx
  rw [dif_neg (show ¬(0 : Fin S515x7.rank) ∈ dot_S256x7_S515x7_S256x515_1_1_0_0_n_n.rhsBatch by decide), dif_pos (show (0 : Fin S515x7.rank) ∈ dot_S256x7_S515x7_S256x515_1_1_0_0_n_n.rhsNonContracting by decide)]
  rfl
theorem rhs_l1_1 (i : S256x515.Idx) (q : dot_S256x7_S515x7_S256x515_1_1_0_0_n_n.contr.Idx) :
    (dot_S256x7_S515x7_S256x515_1_1_0_0_n_n.rhsIdx i q 1).val = (q ⟨0, by decide⟩).val :=
  dot_S256x7_S515x7_S256x515_1_1_0_0_n_n.rhsIdx_val_of_single rfl i q

/-- Into the zero accumulator, entry (p, n) of the product is row p of the left operand against row n of the right. -/
theorem matmul_l1 {φ₁ φ₂ : FTy} (x : FVec Ideal S256x7 φ₁) (w : FVec Ideal S515x7 φ₂) (p : Fin 256) (n : Fin 515) :
    matmul dot_S256x7_S515x7_S256x515_1_1_0_0_n_n none x w (constant (F := Ideal) S256x515 .f32 0x00000000#32) (ix2 p n)
      = ∑ k : Fin 7, x (ix2 p k) * w (ix2 n k) := by
  refine (Ideal.matmul_constant_zero_apply dot_S256x7_S515x7_S256x515_1_1_0_0_n_n none x w (ix2 p n)).trans ?_
  rw [← Equiv.sum_comp (contrEquiv1 dot_S256x7_S515x7_S256x515_1_1_0_0_n_n 7 rfl rfl).symm]
  refine Finset.sum_congr rfl fun k _ => ?_
  have hk := contrEquiv1_symm_val dot_S256x7_S515x7_S256x515_1_1_0_0_n_n 7 rfl rfl k
  have el : dot_S256x7_S515x7_S256x515_1_1_0_0_n_n.lhsIdx (ix2 p n) ((contrEquiv1 dot_S256x7_S515x7_S256x515_1_1_0_0_n_n 7 rfl rfl).symm k) = ix2 p k := funext fun a => Fin.ext (by
    match a with
    | ⟨0, _⟩ => exact lhs_l1_0 _ _
    | ⟨1, _⟩ => exact (lhs_l1_1 _ _).trans hk)
  have er : dot_S256x7_S515x7_S256x515_1_1_0_0_n_n.rhsIdx (ix2 p n) ((contrEquiv1 dot_S256x7_S515x7_S256x515_1_1_0_0_n_n 7 rfl rfl).symm k) = ix2 n k := funext fun a => Fin.ext (by
    match a with
    | ⟨0, _⟩ => exact rhs_l1_0 _ _
    | ⟨1, _⟩ => exact (rhs_l1_1 _ _).trans hk)
  rw [el, er]

/-! ### The product of the first hidden layer with the second layer's weights -/

theorem lhs_l2_0 (i : S256x260.Idx) (q : dot_S256x515_S260x515_S256x260_1_1_0_0_n_n.contr.Idx) :
    (dot_S256x515_S260x515_S256x260_1_1_0_0_n_n.lhsIdx i q 0).val = (i 0).val := by
  unfold DotDims.lhsIdx
  rw [dif_neg (show ¬(0 : Fin S256x515.rank) ∈ dot_S256x515_S260x515_S256x260_1_1_0_0_n_n.lhsBatch by decide), dif_pos (show (0 : Fin S256x515.rank) ∈ dot_S256x515_S260x515_S256x260_1_1_0_0_n_n.lhsNonContracting by decide)]
  rfl
theorem lhs_l2_1 (i : S256x260.Idx) (q : dot_S256x515_S260x515_S256x260_1_1_0_0_n_n.contr.Idx) :
    (dot_S256x515_S260x515_S256x260_1_1_0_0_n_n.lhsIdx i q 1).val = (q ⟨0, by decide⟩).val :=
  dot_S256x515_S260x515_S256x260_1_1_0_0_n_n.lhsIdx_val_of_single rfl i q
theorem rhs_l2_0 (i : S256x260.Idx) (q : dot_S256x515_S260x515_S256x260_1_1_0_0_n_n.contr.Idx) :
    (dot_S256x515_S260x515_S256x260_1_1_0_0_n_n.rhsIdx i q 0).val = (i 1).val := by
  unfold DotDims.rhsIdx
  rw [dif_neg (show ¬(0 : Fin S260x515.rank) ∈ dot_S256x515_S260x515_S256x260_1_1_0_0_n_n.rhsBatch by decide), dif_pos (show (0 : Fin S260x515.rank) ∈ dot_S256x515_S260x515_S256x260_1_1_0_0_n_n.rhsNonContracting by decide)]
  rfl
theorem rhs_l2_1 (i : S256x260.Idx) (q : dot_S256x515_S260x515_S256x260_1_1_0_0_n_n.contr.Idx) :
    (dot_S256x515_S260x515_S256x260_1_1_0_0_n_n.rhsIdx i q 1).val = (q ⟨0, by decide⟩).val :=
  dot_S256x515_S260x515_S256x260_1_1_0_0_n_n.rhsIdx_val_of_single rfl i q

/-- Into the zero accumulator, entry (p, n) of the product is row p of the left operand against row n of the right. -/
theorem matmul_l2 {φ₁ φ₂ : FTy} (x : FVec Ideal S256x515 φ₁) (w : FVec Ideal S260x515 φ₂) (p : Fin 256) (n : Fin 260) :
    matmul dot_S256x515_S260x515_S256x260_1_1_0_0_n_n none x w (constant (F := Ideal) S256x260 .f32 0x00000000#32) (ix2 p n)
      = ∑ k : Fin 515, x (ix2 p k) * w (ix2 n k) := by
  refine (Ideal.matmul_constant_zero_apply dot_S256x515_S260x515_S256x260_1_1_0_0_n_n none x w (ix2 p n)).trans ?_
  rw [← Equiv.sum_comp (contrEquiv1 dot_S256x515_S260x515_S256x260_1_1_0_0_n_n 515 rfl rfl).symm]
  refine Finset.sum_congr rfl fun k _ => ?_
  have hk := contrEquiv1_symm_val dot_S256x515_S260x515_S256x260_1_1_0_0_n_n 515 rfl rfl k
  have el : dot_S256x515_S260x515_S256x260_1_1_0_0_n_n.lhsIdx (ix2 p n) ((contrEquiv1 dot_S256x515_S260x515_S256x260_1_1_0_0_n_n 515 rfl rfl).symm k) = ix2 p k := funext fun a => Fin.ext (by
    match a with
    | ⟨0, _⟩ => exact lhs_l2_0 _ _
    | ⟨1, _⟩ => exact (lhs_l2_1 _ _).trans hk)
  have er : dot_S256x515_S260x515_S256x260_1_1_0_0_n_n.rhsIdx (ix2 p n) ((contrEquiv1 dot_S256x515_S260x515_S256x260_1_1_0_0_n_n 515 rfl rfl).symm k) = ix2 n k := funext fun a => Fin.ext (by
    match a with
    | ⟨0, _⟩ => exact rhs_l2_0 _ _
    | ⟨1, _⟩ => exact (rhs_l2_1 _ _).trans hk)
  rw [el, er]

/-- The first dense layer as the kernel spells it: the product into a zero accumulator, the bias row broadcast down the
    rows, the maximum with the zero splat. -/
def kLayer1 (h : Vec Ideal S256x7 .f32) (W : Vec Ideal S515x7 .f32) (bias : Vec Ideal S1x515 .f32) : FVec Ideal S256x515 .f32 :=
  maximumf
    (addf (matmul dot_S256x7_S515x7_S256x515_1_1_0_0_n_n none (truncf .bf16 h bitsLt_bf16_f32) (truncf .bf16 W bitsLt_bf16_f32) (constant (F := Ideal) S256x515 .f32 0x00000000#32))
      (broadcastTo S256x515 (shapeCast S1x515 bias shapeCasts_S1x515_S1x515) broadcasts_S1x515_S256x515))
    (broadcast S256x515 (Scalar.ofBits (F := Ideal) .f32 0x00000000#32))

/-- Read at (p, n) it is the specification's dense layer. -/
theorem kLayer1_apply (h : Vec Ideal S256x7 .f32) (W : Vec Ideal S515x7 .f32) (bias : Vec Ideal S1x515 .f32) (p : Fin 256) (n : Fin 515) :
    kLayer1 h W bias (ix2 p n) = dense (cur2 h) (cur2 W) (row1 bias) p n := by
  have eb : broadcastTo S256x515 (shapeCast S1x515 bias shapeCasts_S1x515_S1x515) broadcasts_S1x515_S256x515 (ix2 p n)
      = bias (ix2 (0 : Fin 1) n) := by
    refine (broadcastTo_1b_ab_apply _ _ p n).trans ?_
    exact congrFun (shapeCast_self _ _) _
  have em := matmul_l1 (truncf .bf16 h bitsLt_bf16_f32) (truncf .bf16 W bitsLt_bf16_f32) p n
  unfold kLayer1 dense
  show max (matmul dot_S256x7_S515x7_S256x515_1_1_0_0_n_n none (truncf .bf16 h bitsLt_bf16_f32) (truncf .bf16 W bitsLt_bf16_f32) (constant (F := Ideal) S256x515 .f32 0x00000000#32) (ix2 p n)
        + broadcastTo S256x515 (shapeCast S1x515 bias shapeCasts_S1x515_S1x515) broadcasts_S1x515_S256x515 (ix2 p n))
      (Scalar.ofBits (F := Ideal) .f32 0x00000000#32 : EReal) = _
  rw [em, eb, scalar_zero]
  rfl

/-- The second dense layer as the kernel spells it: the product into a zero accumulator, the bias row broadcast down the
    rows, the maximum with the zero splat. -/
def kLayer2 (h : Vec Ideal S256x515 .f32) (W : Vec Ideal S260x515 .f32) (bias : Vec Ideal S1x260 .f32) : FVec Ideal S256x260 .f32 :=
  maximumf
    (addf (matmul dot_S256x515_S260x515_S256x260_1_1_0_0_n_n none (truncf .bf16 h bitsLt_bf16_f32) (truncf .bf16 W bitsLt_bf16_f32) (constant (F := Ideal) S256x260 .f32 0x00000000#32))
      (broadcastTo S256x260 (shapeCast S1x260 bias shapeCasts_S1x260_S1x260) broadcasts_S1x260_S256x260))
    (broadcast S256x260 (Scalar.ofBits (F := Ideal) .f32 0x00000000#32))

/-- Read at (p, n) it is the specification's dense layer. -/
theorem kLayer2_apply (h : Vec Ideal S256x515 .f32) (W : Vec Ideal S260x515 .f32) (bias : Vec Ideal S1x260 .f32) (p : Fin 256) (n : Fin 260) :
    kLayer2 h W bias (ix2 p n) = dense (cur2 h) (cur2 W) (row1 bias) p n := by
  have eb : broadcastTo S256x260 (shapeCast S1x260 bias shapeCasts_S1x260_S1x260) broadcasts_S1x260_S256x260 (ix2 p n)
      = bias (ix2 (0 : Fin 1) n) := by
    refine (broadcastTo_1b_ab_apply _ _ p n).trans ?_
    exact congrFun (shapeCast_self _ _) _
  have em := matmul_l2 (truncf .bf16 h bitsLt_bf16_f32) (truncf .bf16 W bitsLt_bf16_f32) p n
  unfold kLayer2 dense
  show max (matmul dot_S256x515_S260x515_S256x260_1_1_0_0_n_n none (truncf .bf16 h bitsLt_bf16_f32) (truncf .bf16 W bitsLt_bf16_f32) (constant (F := Ideal) S256x260 .f32 0x00000000#32) (ix2 p n)
        + broadcastTo S256x260 (shapeCast S1x260 bias shapeCasts_S1x260_S1x260) broadcasts_S1x260_S256x260 (ix2 p n))
      (Scalar.ofBits (F := Ideal) .f32 0x00000000#32 : EReal) = _
  rw [em, eb, scalar_zero]
  rfl

/-- The first region's payload: the first two dense layers composed. -/
theorem pay0_apply (v0 : Vec Ideal S256x7 .f32) (v2 : Vec Ideal S515x7 .f32) (v5 : Vec Ideal S1x515 .f32) (v12 : Vec Ideal S260x515 .f32) (v15 : Vec Ideal S1x260 .f32) (b : Fin 256) (j : Fin 260) :
    k0_pay1 v0 v2 v5 v12 v15 (ix2 b j) = dense (dense (cur2 v0) (cur2 v2) (row1 v5)) (cur2 v12) (row1 v15) b j := by
  unfold k0_pay1
  have e : cur2 (kLayer1 v0 v2 v5) = dense (cur2 v0) (cur2 v2) (row1 v5) :=
    funext fun p => funext fun q => kLayer1_apply v0 v2 v5 p q
  show kLayer2 (kLayer1 v0 v2 v5) v12 v15 (ix2 b j) = _
  rw [kLayer2_apply, e]

end Cert.KernelIdeal.Pay

end
-- ==== Proof.KI.Val0.lean ====
/-
  The first kernel region's result over the extended reals: its one output block is the whole array, stored once from the
  five inputs, so the array after the region is the first two layers of the arguments.
-/
import proofs.«174769_j66597762892542_1_alg».proof.Proof.KI.Entry
import proofs.«174769_j66597762892542_1_alg».proof.Proof.KI.Pieces
import proofs.«174769_j66597762892542_1_alg».proof.Proof.KI.Blocks
import proofs.«174769_j66597762892542_1_alg».proof.Proof.KI.Pay
import Idealize.ShloMosaic.Lib.Pipeline.Value

noncomputable section

namespace Cert.KernelIdeal.Val

open Cert.KernelIdeal Cert.KernelIdeal.Gen Cert.KernelIdeal.Fr Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

open Cert.KernelIdeal.Pay

/-- The first region's output array after the region, as the body's payload of what the region finds in its inputs. -/
abbrev G0 : Vec Ideal S256x260 .f32 :=
  k0_pay1 (U1 m c main_arg0 : Vec Ideal S256x7 .f32) (U1 m c main_arg1 : Vec Ideal S515x7 .f32) (U1 m c main_v0 : Vec Ideal S1x515 .f32)
    (U1 m c main_arg3 : Vec Ideal S260x515 .f32) (U1 m c main_v1 : Vec Ideal S1x260 .f32)

/-- What the one point writes back is the one block of `G0`. -/
theorem flushed0 (t : Fin cfg0.N) : (dat0 (U1 m) c).flushed 5 t = ((cfg0.win 5).blk t).view.read (Elt Ideal) (G0 m c) := by
  rw [blk0_5_read]
  show (dat0 (U1 m) c).after 5 t = _
  rw [after0_5, out0_5_eq, iblk0_0_eq, iblk0_1_eq, iblk0_2_eq, iblk0_3_eq, iblk0_4_eq]

theorem arr0 : (dat0 (U1 m) c).arrAt 5 cfg0.N = G0 m c :=
  (dat0 (U1 m) c).arrAt_eq_of_cover 5 (G0 m c) (fun t _ => flushed0 m c t) cover0_5arr

/-- The second region finds the first two layers of the arguments in its first window's array. -/
theorem h2_eq (b : Fin 256) (j : Fin 260) :
    (U2 m c main_v4 : Vec Ideal S256x260 .f32) (ix2 b j)
      = dense (dense (cur2 (aX m c)) (cur2 (aW1 m c)) (cur1 (aB1 m c))) (cur2 (aW2 m c)) (cur1 (aB2 m c)) b j := by
  have e : (U2 m c main_v4 : Vec Ideal S256x260 .f32) = G0 m c := (W2_arr m c 5).trans (arr0 m c)
  have r0 : row1 (U1 m c main_v0 : Vec Ideal S1x515 .f32) = cur1 (aB1 m c) := funext (U1_v0_row m c)
  have r1 : row1 (U1 m c main_v1 : Vec Ideal S1x260 .f32) = cur1 (aB2 m c) := funext (U1_v1_row m c)
  rw [e]
  refine (pay0_apply _ _ _ _ _ b j).trans ?_
  rw [r0, r1, U1_arg0, U1_arg1, U1_arg3]

end Cert.KernelIdeal.Val

end
-- ==== Proof.SumTiles.lean ====
/-
  Regrouping a sum over consecutive naturals into consecutive tiles of equal width:
  Σ_{s < T} Σ_{kk < K} f (K·s + kk) = Σ_{κ < T·K} f κ, and the instance 64 tiles of 1024 against 65536.
-/
import Mathlib.Algebra.BigOperators.Group.Finset.Basic
import Mathlib.Algebra.BigOperators.Fin
import Mathlib.Tactic.NormNum.Basic

open scoped BigOperators

namespace Cert.SumTiles

/-- A sum over T·K consecutive naturals, tile by tile. -/
theorem sum_range_tiles {β : Type*} [AddCommMonoid β] (f : ℕ → β) (T K : ℕ) :
    ∑ s ∈ Finset.range T, ∑ kk ∈ Finset.range K, f (K * s + kk) = ∑ κ ∈ Finset.range (T * K), f κ := by
  induction T with
  | zero => simp
  | succ T ih =>
    -- the last tile is the tail of range (T·K + K)
    rw [Finset.sum_range_succ, ih, Nat.add_one_mul, Finset.sum_range_add, Nat.mul_comm K T]

/-- The same with the inner sum over Fin 1024 and the outer over range 64, against a sum over Fin 65536. -/
theorem sum_tiles_fin {β : Type*} [AddCommMonoid β] (f : ℕ → β) :
    ∑ s ∈ Finset.range 64, ∑ kk : Fin 1024, f (1024 * s + kk.val) = ∑ κ : Fin 65536, f κ.val := by
  have h := sum_range_tiles f 64 1024
  rw [show (64 : ℕ) * 1024 = 65536 by norm_num, Finset.sum_range (n := 65536)] at h
  rw [← h]
  refine Finset.sum_congr rfl fun s _ => ?_
  exact (Finset.sum_range (fun kk => f (1024 * s + kk))).symm

end Cert.SumTiles
-- ==== Proof.KI.Val1.lean ====
/-
  The second kernel region's result over the extended reals. At grid point t = 64·mm + k the running sum's buffer holds,
  at (b, j), the sum over the tiles s ≤ k of Σ_kk h3[b, 1024·s + kk] · W4[1024·mm + j, 1024·s + kk], where
  h3 = max (h2 · W3ᵀ + b3) 0 is the third layer: a fold restarted at k = 0 and extended by one tile's product per point.
  At k = 63 the 64 tiles' sums make the whole contraction over the 65536 hidden features, the output block is
  max (sum + b4) 0, and the two halves' blocks cover the output array.
-/
import proofs.«174769_j66597762892542_1_alg».proof.Proof.KI.Val0
import proofs.«174769_j66597762892542_1_alg».proof.Proof.SumTiles
import Idealize.ShloMosaic.Lib.Pipeline.Value

noncomputable section

namespace Cert.KernelIdeal.Val

open Cert.KernelIdeal Cert.KernelIdeal.Gen Cert.KernelIdeal.Fr Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

open Cert.KernelIdeal.Pay

/-- What the second region finds in its first window's array (the first region's result). -/
abbrev H2 : Vec Ideal S256x260 .f32 := U2 m c main_v4
/-- The third layer of it. -/
abbrev h3 : Fin 256 → Fin 65536 → EReal := dense (cur2 (H2 m c)) (cur2 (aW3 m c)) (cur1 (aB3 m c))

/-! ## The input blocks at a point, by their literal shapes, and what they hold of the arguments -/

abbrev bk0 (n : ℕ) (h : n < cfg1.N) : Vec Ideal S256x260 .f32 := iblk1 (U2 m) c 0 ⟨n, h⟩
abbrev bk1 (n : ℕ) (h : n < cfg1.N) : Vec Ideal S1024x260 .f32 := iblk1 (U2 m) c 1 ⟨n, h⟩
abbrev bk2 (n : ℕ) (h : n < cfg1.N) : Vec Ideal S1x1024 .f32 := iblk1 (U2 m) c 2 ⟨n, h⟩
abbrev bk3 (n : ℕ) (h : n < cfg1.N) : Vec Ideal S1024x1024 .f32 := iblk1 (U2 m) c 3 ⟨n, h⟩
abbrev bk4 (n : ℕ) (h : n < cfg1.N) : Vec Ideal S1x1024 .f32 := iblk1 (U2 m) c 4 ⟨n, h⟩

theorem bk0_apply (n : ℕ) (h : n < cfg1.N) (b : Fin 256) (i : Fin 260) : bk0 m c n h (ix2 b i) = H2 m c (ix2 b i) :=
  iblk1_0_apply (U2 m) c ⟨n, h⟩ b i
theorem bk1_apply (n : ℕ) (h : n < cfg1.N) (hk : n % 64 < 64) (kk : Fin 1024) (i : Fin 260) :
    bk1 m c n h (ix2 kk i) = aW3 m c (ix2 (tileIx (n % 64) kk hk) i) :=
  (iblk1_1_apply (U2 m) c ⟨n, h⟩ hk kk i).trans (congrFun (U2_arg5 m c) _)
theorem bk2_apply (n : ℕ) (h : n < cfg1.N) (hk : n % 64 < 64) (kk : Fin 1024) :
    bk2 m c n h (ix2 (0 : Fin 1) kk) = aB3 m c (ix1 (tileIx (n % 64) kk hk)) :=
  (iblk1_2_apply (U2 m) c ⟨n, h⟩ hk kk).trans (U2_v2_row m c _)
theorem bk3_apply (n : ℕ) (h : n < cfg1.N) (hm : n / 64 < 2) (hk : n % 64 < 64) (j kk : Fin 1024) :
    bk3 m c n h (ix2 j kk) = aW4 m c (ix2 (halfIx (n / 64) j hm) (tileIx (n % 64) kk hk)) :=
  (iblk1_3_apply (U2 m) c ⟨n, h⟩ hm hk j kk).trans (congrFun (U2_arg7 m c) _)
theorem bk4_apply (n : ℕ) (h : n < cfg1.N) (hm : n / 64 < 2) (j : Fin 1024) :
    bk4 m c n h (ix2 (0 : Fin 1) j) = aB4 m c (ix1 (halfIx (n / 64) j hm)) :=
  (iblk1_4_apply (U2 m) c ⟨n, h⟩ hm j).trans (U2_v3_row m c _)

/-! ## The running sum as a fold over the points -/

/-- The running sum's buffer after point `n`, -/
abbrev accF (n : ℕ) (h : n < cfg1.N) : Vec Ideal S256x1024 .f32 := (outsAt1 (U2 m) c n h).2
/-- what a point adds to a given sum, -/
abbrev accG (n : ℕ) (h : n < cfg1.N) (acc : Vec Ideal S256x1024 .f32) : Vec Ideal S256x1024 .f32 :=
  k1_pay2 (bk0 m c n h) (bk1 m c n h) (bk2 m c n h) (bk3 m c n h) acc
/-- and what a point that restarts the sum leaves. -/
abbrev accA (n : ℕ) (h : n < cfg1.N) : Vec Ideal S256x1024 .f32 := accG m c n h (k1_pay1 (F := Ideal))

theorem acc_reset (n : ℕ) (h : n < cfg1.N) (h0 : n % 64 = 0) : accF m c n h = accA m c n h := by
  have h1 : ¬n % 64 = 63 := by omega
  show (outsAt1 (U2 m) c (⟨n, h⟩ : Fin cfg1.N).val (⟨n, h⟩ : Fin cfg1.N).isLt).2 = _
  rw [outsAt1_A (U2 m) c ⟨n, h⟩ h0 h1]
  exact outA_snd (U2 m) c ⟨n, h⟩ h0 h1

theorem acc_step (n : ℕ) (h : n + 1 < cfg1.N) (hne : ¬(n + 1) % 64 = 0) :
    accF m c (n + 1) h = accG m c (n + 1) h (accF m c n (Nat.lt_of_succ_lt h)) := by
  by_cases h1 : (n + 1) % 64 = 63
  · show (outsAt1 (U2 m) c (⟨n + 1, h⟩ : Fin cfg1.N).val (⟨n + 1, h⟩ : Fin cfg1.N).isLt).2 = _
    rw [outsAt1_C (U2 m) c ⟨n + 1, h⟩ hne h1]
    exact outC_snd (U2 m) c ⟨n + 1, h⟩ hne h1 _
  · show (outsAt1 (U2 m) c (⟨n + 1, h⟩ : Fin cfg1.N).val (⟨n + 1, h⟩ : Fin cfg1.N).isLt).2 = _
    rw [outsAt1_B (U2 m) c ⟨n + 1, h⟩ hne h1]
    exact outB_snd (U2 m) c ⟨n + 1, h⟩ hne h1 _

/-- The running sum after any point is the fold from the last restart. -/
theorem acc_fold (t : ℕ) (ht : t < cfg1.N) (h' : 64 * (t / 64) + t % 64 < cfg1.N) :
    accF m c t ht = Pipeline.accAt (accA m c) (accG m c) (64 * (t / 64)) (t % 64) h' :=
  Pipeline.eq_accAt_of_mod (accF m c) 64 (accA m c) (accG m c) (acc_reset m c) (acc_step m c) (by decide) t ht h'

/-! ## One point's addend, in the arguments -/

/-- The addend of point `n` at (b, j): tile `n % 64` of the contraction for output column `1024·(n / 64) + j`. -/
def Mc (n : ℕ) (b : Fin 256) (j : Fin 1024) : EReal :=
  if hm : n / 64 < 2 then
    ∑ kk : Fin 1024, h3 m c b (tileIx (n % 64) kk (Nat.mod_lt _ (by decide)))
      * (aW4 m c) (ix2 (halfIx (n / 64) j hm) (tileIx (n % 64) kk (Nat.mod_lt _ (by decide))))
  else 0
/-- The same at an index of the block. -/
abbrev Mt (n : ℕ) (i : S256x1024.Idx) : EReal := Mc m c n (i 0) (i 1)

/-- The third layer read through a point's blocks is the third layer at the tile's features. -/
theorem dense_blk (n : ℕ) (h : n < cfg1.N) (b : Fin 256) (kk : Fin 1024) :
    dense (cur2 (bk0 m c n h)) (cur2 (bk1 m c n h)) (row1 (bk2 m c n h)) b kk
      = h3 m c b (tileIx (n % 64) kk (Nat.mod_lt _ (by decide))) := by
  have hk : n % 64 < 64 := Nat.mod_lt _ (by decide)
  have e0 : ∀ i : Fin 260, cur2 (bk0 m c n h) b i = cur2 (H2 m c) b i := fun i => bk0_apply m c n h b i
  have e1 : ∀ i : Fin 260, cur2 (bk1 m c n h) kk i = cur2 (aW3 m c) (tileIx (n % 64) kk hk) i := fun i => bk1_apply m c n h hk kk i
  have e2 : row1 (bk2 m c n h) kk = cur1 (aB3 m c) (tileIx (n % 64) kk hk) := bk2_apply m c n h hk kk
  unfold h3 dense
  rw [e2, Finset.sum_congr rfl fun i _ => by rw [e0 i, e1 i]]

/-- A point's step adds its addend. -/
theorem accG_apply (n : ℕ) (h : n < cfg1.N) (acc : Vec Ideal S256x1024 .f32) (i : S256x1024.Idx) :
    accG m c n h acc i = acc i + Mt m c n i := by
  have hN : n < 128 := lt_of_lt_of_eq h N_1
  have hm : n / 64 < 2 := by omega
  have hk : n % 64 < 64 := Nat.mod_lt _ (by decide)
  obtain ⟨b, j, rfl⟩ : ∃ (b : Fin 256) (j : Fin 1024), i = ix2 b j := ⟨i 0, i 1, eq_ix2 i⟩
  refine (pay2_apply _ _ _ _ acc b j).trans ?_
  show acc (ix2 b j) + _ = acc (ix2 b j) + Mc m c n b j
  congr 1
  unfold Mc
  rw [dif_pos hm]
  refine Finset.sum_congr rfl fun kk _ => ?_
  rw [dense_blk m c n h b kk, bk3_apply m c n h hm hk j kk]

theorem accA_apply (n : ℕ) (h : n < cfg1.N) (i : S256x1024.Idx) : accA m c n h i = 0 + Mt m c n i := by
  refine (accG_apply m c n h _ i).trans ?_
  congr 1
  obtain ⟨b, j, rfl⟩ : ∃ (b : Fin 256) (j : Fin 1024), i = ix2 b j := ⟨i 0, i 1, eq_ix2 i⟩
  exact pay1_apply b j

/-- One term of the whole contraction for output column `1024·a + j`, as a function of every natural (zero past the
    65536 hidden features). -/
def Fk (a : ℕ) (ha : a < 2) (b : Fin 256) (j : Fin 1024) (κ : ℕ) : EReal :=
  if hκ : κ < 65536 then h3 m c b ⟨κ, hκ⟩ * (aW4 m c) (ix2 (halfIx a j ha) ⟨κ, hκ⟩) else 0

/-- The addend of point 64·a + s at (b, j), by the tile's offset. -/
theorem Mc_at (a s : ℕ) (ha : a < 2) (hs : s < 64) (b : Fin 256) (j : Fin 1024) :
    Mc m c (64 * a + s) b j = ∑ kk : Fin 1024, Fk m c a ha b j (1024 * s + kk.val) := by
  have e1 : (64 * a + s) / 64 = a := by omega
  have e2 : (64 * a + s) % 64 = s := by omega
  unfold Mc
  rw [dif_pos (by omega)]
  refine Finset.sum_congr rfl fun kk _ => ?_
  have hκ : 1024 * s + kk.val < 65536 := by have := kk.isLt; omega
  unfold Fk
  rw [dif_pos hκ]
  have t1 : tileIx ((64 * a + s) % 64) kk (Nat.mod_lt _ (by decide)) = (⟨1024 * s + kk.val, hκ⟩ : Fin 65536) :=
    Fin.ext (by show 1024 * ((64 * a + s) % 64) + kk.val = _; rw [e2])
  have t2 : ∀ hm, halfIx ((64 * a + s) / 64) j hm = halfIx a j ha :=
    fun hm => Fin.ext (by show 1024 * ((64 * a + s) / 64) + j.val = _; rw [e1])
  rw [t1, t2]

/-- The whole contraction at the last point of a half: the 64 tiles' sums. -/
theorem acc_last (t : ℕ) (ht : t < cfg1.N) (h63 : t % 64 = 63) (hm : t / 64 < 2) (b : Fin 256) (j : Fin 1024) :
    accF m c t ht (ix2 b j) = ∑ κ : Fin 65536, h3 m c b κ * (aW4 m c) (ix2 (halfIx (t / 64) j hm) κ) := by
  have hN : cfg1.N = 128 := N_1
  have h' : 64 * (t / 64) + t % 64 < cfg1.N := by omega
  rw [acc_fold m c t ht h']
  have hfold := Pipeline.accAt_add_apply (accA m c) (accG m c) (fun _ => (0 : EReal)) (Mt m c) (64 * (t / 64)) 63
    (fun h i => accA_apply m c _ h i) (fun n h acc i _ _ => accG_apply m c n h acc i) (t % 64) (by omega) h' (ix2 b j)
  rw [hfold, zero_add, h63]
  have hsum : ∀ s ∈ Finset.range (63 + 1), Mt m c (64 * (t / 64) + s) (ix2 b j) = ∑ kk : Fin 1024, Fk m c (t / 64) hm b j (1024 * s + kk.val) :=
    fun s hs => Mc_at m c (t / 64) s hm (by have := Finset.mem_range.mp hs; omega) b j
  rw [Finset.sum_congr rfl hsum]
  refine (Cert.SumTiles.sum_tiles_fin (Fk m c (t / 64) hm b j)).trans ?_
  refine Finset.sum_congr rfl fun κ _ => ?_
  unfold Fk
  rw [dif_pos κ.isLt]

/-! ## The output blocks and the output array -/

/-- The second region's output array after the region: the fourth layer over the third. -/
def G1 : Vec Ideal S256x2048 .f32 := fun i => dense (h3 m c) (cur2 (aW4 m c)) (cur1 (aB4 m c)) (i 0) (i 1)

theorem G1_apply (b : Fin 256) (n : Fin 2048) : G1 m c (ix2 b n) = dense (h3 m c) (cur2 (aW4 m c)) (cur1 (aB4 m c)) b n := rfl

/-- The running sum's buffer after the last point of a half, as the body's own step over the point before. -/
theorem acc_as_step (t : Fin cfg1.N) (h0 : ¬t.val % 64 = 0) (h63 : t.val % 64 = 63) :
    k1_pay2 (iblk1 (U2 m) c 0 t) (iblk1 (U2 m) c 1 t) (iblk1 (U2 m) c 2 t) (iblk1 (U2 m) c 3 t)
      (outsAt1 (U2 m) c (t.val - 1) (Nat.lt_of_le_of_lt (Nat.sub_le _ _) t.isLt)).2 = accF m c t.val t.isLt := by
  show _ = (outsAt1 (U2 m) c t.val t.isLt).2
  rw [outsAt1_C (U2 m) c t h0 h63]
  exact (outC_snd (U2 m) c t h0 h63 _).symm

/-- The output block stored at the last point of a half, at (b, j). -/
theorem after5_apply (t : Fin cfg1.N) (h0 : ¬t.val % 64 = 0) (h63 : t.val % 64 = 63) (hm : t.val / 64 < 2) (b : Fin 256) (j : Fin 1024) :
    ((outsAt1 (U2 m) c t.val t.isLt).1 : Vec Ideal S256x1024 .f32) (ix2 b j) = G1 m c (ix2 b (halfIx (t.val / 64) j hm)) := by
  rw [outsAt1_C (U2 m) c t h0 h63, outC_fst (U2 m) c t h0 h63, acc_as_step m c t h0 h63]
  refine (pay3_apply (accF m c t.val t.isLt) (bk4 m c t.val t.isLt) b j).trans ?_
  rw [acc_last m c t.val t.isLt h63 hm b j, bk4_apply m c t.val t.isLt hm j, G1_apply]
  rfl

/-- What the last point of a half writes back is that half of `G1`. -/
theorem flushed1 (t : Fin cfg1.N) (hf : (cfg1.win 5).flush t = true) :
    (dat1 (U2 m) c).flushed 5 t = ((cfg1.win 5).blk t).view.read (Elt Ideal) (G1 m c) := by
  have h63 : t.val % 64 = 63 := (flush1_5 t).mp hf
  have h0 : ¬t.val % 64 = 0 := by omega
  have hN : t.val < 128 := lt_of_lt_of_eq t.isLt N_1
  have hm : t.val / 64 < 2 := by omega
  funext y
  obtain ⟨b, j, rfl⟩ : ∃ (b : Fin 256) (j : Fin 1024), y = ix2 b j := ⟨y 0, y 1, eq_ix2 y⟩
  refine Eq.trans ?_ (blk1_5_read (G1 m c) t hm b j).symm
  show (dat1 (U2 m) c).after 5 t (ix2 b j) = _
  rw [after1_5]
  exact after5_apply m c t h0 h63 hm b j

theorem arr1 : (dat1 (U2 m) c).arrAt 5 cfg1.N = G1 m c :=
  (dat1 (U2 m) c).arrAt_eq_of_cover 5 (G1 m c) (flushed1 m c) cover1_5

/-- The result array after the whole program is the network of the arguments. -/
theorem result_eq (b : Fin 256) (n : Fin 2048) :
    (W3 m c (Proc.devRef .tc main_v5) : Vec Ideal S256x2048 .f32) (ix2 b n)
      = net (cur2 (aX m c)) (cur2 (aW1 m c)) (cur1 (aB1 m c)) (cur2 (aW2 m c)) (cur1 (aB2 m c)) (cur2 (aW3 m c)) (cur1 (aB3 m c))
          (cur2 (aW4 m c)) (cur1 (aB4 m c)) b n := by
  have e : (W3 m c (Proc.devRef .tc main_v5) : Vec Ideal S256x2048 .f32) = G1 m c := (W3_arr m c 5).trans (arr1 m c)
  have hh : cur2 (H2 m c) = dense (dense (cur2 (aX m c)) (cur2 (aW1 m c)) (cur1 (aB1 m c))) (cur2 (aW2 m c)) (cur1 (aB2 m c)) :=
    funext fun p => funext fun q => h2_eq m c p q
  rw [e, G1_apply]
  unfold net h3
  rw [hh]

end Cert.KernelIdeal.Val

end
-- ==== Proof.RefSpec.lean ====
/-
  The reference program computes the network: each of its four stages (matrix product against the transposed weights,
  bias added along rows, clamp below at zero) is one dense layer of the specification.
-/
import proofs.«174769_j66597762892542_1_alg».proof.Proof.Gen.ReferenceIdeal.Read
import proofs.«174769_j66597762892542_1_alg».proof.Proof.Spec

noncomputable section

open scoped BigOperators

namespace Cert.RefSpec

open Cert.ReferenceIdeal Cert.ReferenceIdeal.Read Cert.Spec Idealize.ShloMosaic Idealize.ShloMosaic.ValueIdx

/-! ## First layer -/

/-- The left operand of the first product is read at row `b`, column `k`. -/
theorem lidx1 (b : Fin 256) (j : Fin 515) (k : Fin 7) : lidx_main_v1 (ix2 b j) k = ix2 b k :=
  funext fun a => Fin.ext (by match a with | ⟨0, _⟩ => rfl | ⟨1, _⟩ => rfl)
/-- The transposed weight is read at row `j`, column `k` of the stored matrix. -/
theorem ridx1 (b : Fin 256) (j : Fin 515) (k : Fin 7) : idx_main_v0 (ridx_main_v1 (ix2 b j) k) = ix2 j k :=
  funext fun a => Fin.ext (by match a with | ⟨0, _⟩ => rfl | ⟨1, _⟩ => rfl)
/-- The broadcast bias is read at column `j`. -/
theorem bidx1 (b : Fin 256) (j : Fin 515) : idx_main_v2 (idx_main_v3 (ix2 b j)) = ix1 j :=
  funext fun a => Fin.ext (by match a with | ⟨0, _⟩ => rfl)

/-- The first stage is the first dense layer. -/
theorem v5_eq (x0 : (⟨S256x7, .f32⟩ : BufTy).Contents (Elt Ideal)) (x1 : (⟨S515x7, .f32⟩ : BufTy).Contents (Elt Ideal)) (x2 : (⟨S515, .f32⟩ : BufTy).Contents (Elt Ideal)) (b : Fin 256) (j : Fin 515) :
    val_main_v5 (F := Ideal) x0 x1 x2 (ix2 b j) = dense (cur2 x0) (cur2 x1) (cur1 x2) b j := by
  rw [val_main_v5_apply, val_main_v4_apply, val_main_v1_apply, val_main_v3_apply, val_main_v2_apply, val_main_call0_v0_apply, val_main_call0_cst_apply]
  simp only [val_main_v0_apply, lidx1, ridx1, bidx1, Ideal.maximumf_def, Ideal.addf_def, Ideal.ofBits_def, Ideal.ofBits_zero_f32]
  rfl

/-! ## Second layer -/

/-- The left operand of the second product is read at row `b`, column `k`. -/
theorem lidx2 (b : Fin 256) (j : Fin 260) (k : Fin 515) : lidx_main_v7 (ix2 b j) k = ix2 b k :=
  funext fun a => Fin.ext (by match a with | ⟨0, _⟩ => rfl | ⟨1, _⟩ => rfl)
/-- The transposed weight is read at row `j`, column `k` of the stored matrix. -/
theorem ridx2 (b : Fin 256) (j : Fin 260) (k : Fin 515) : idx_main_v6 (ridx_main_v7 (ix2 b j) k) = ix2 j k :=
  funext fun a => Fin.ext (by match a with | ⟨0, _⟩ => rfl | ⟨1, _⟩ => rfl)
/-- The broadcast bias is read at column `j`. -/
theorem bidx2 (b : Fin 256) (j : Fin 260) : idx_main_v8 (idx_main_v9 (ix2 b j)) = ix1 j :=
  funext fun a => Fin.ext (by match a with | ⟨0, _⟩ => rfl)

/-- The second stage is the second dense layer applied to the stage before. -/
theorem v11_eq (x0 : (⟨S256x7, .f32⟩ : BufTy).Contents (Elt Ideal)) (x1 : (⟨S515x7, .f32⟩ : BufTy).Contents (Elt Ideal)) (x2 : (⟨S515, .f32⟩ : BufTy).Contents (Elt Ideal)) (x3 : (⟨S260x515, .f32⟩ : BufTy).Contents (Elt Ideal)) (x4 : (⟨S260, .f32⟩ : BufTy).Contents (Elt Ideal)) (b : Fin 256) (j : Fin 260) :
    val_main_v11 (F := Ideal) x0 x1 x2 x3 x4 (ix2 b j) = dense (dense (cur2 x0) (cur2 x1) (cur1 x2)) (cur2 x3) (cur1 x4) b j := by
  rw [val_main_v11_apply, val_main_v10_apply, val_main_v7_apply, val_main_v9_apply, val_main_v8_apply, val_main_call1_v0_apply, val_main_call1_cst_apply]
  simp only [val_main_v6_apply, lidx2, ridx2, bidx2, v5_eq, Ideal.maximumf_def, Ideal.addf_def, Ideal.ofBits_def, Ideal.ofBits_zero_f32]
  rfl

/-! ## Third layer -/

/-- The left operand of the third product is read at row `b`, column `k`. -/
theorem lidx3 (b : Fin 256) (j : Fin 65536) (k : Fin 260) : lidx_main_v13 (ix2 b j) k = ix2 b k :=
  funext fun a => Fin.ext (by match a with | ⟨0, _⟩ => rfl | ⟨1, _⟩ => rfl)
/-- The transposed weight is read at row `j`, column `k` of the stored matrix. -/
theorem ridx3 (b : Fin 256) (j : Fin 65536) (k : Fin 260) : idx_main_v12 (ridx_main_v13 (ix2 b j) k) = ix2 j k :=
  funext fun a => Fin.ext (by match a with | ⟨0, _⟩ => rfl | ⟨1, _⟩ => rfl)
/-- The broadcast bias is read at column `j`. -/
theorem bidx3 (b : Fin 256) (j : Fin 65536) : idx_main_v14 (idx_main_v15 (ix2 b j)) = ix1 j :=
  funext fun a => Fin.ext (by match a with | ⟨0, _⟩ => rfl)

/-- The third stage is the third dense layer applied to the stage before. -/
theorem v17_eq (x0 : (⟨S256x7, .f32⟩ : BufTy).Contents (Elt Ideal)) (x1 : (⟨S515x7, .f32⟩ : BufTy).Contents (Elt Ideal)) (x2 : (⟨S515, .f32⟩ : BufTy).Contents (Elt Ideal)) (x3 : (⟨S260x515, .f32⟩ : BufTy).Contents (Elt Ideal)) (x4 : (⟨S260, .f32⟩ : BufTy).Contents (Elt Ideal)) (x5 : (⟨S65536x260, .f32⟩ : BufTy).Contents (Elt Ideal)) (x6 : (⟨S65536, .f32⟩ : BufTy).Contents (Elt Ideal)) (b : Fin 256) (j : Fin 65536) :
    val_main_v17 (F := Ideal) x0 x1 x2 x3 x4 x5 x6 (ix2 b j) = dense (dense (dense (cur2 x0) (cur2 x1) (cur1 x2)) (cur2 x3) (cur1 x4)) (cur2 x5) (cur1 x6) b j := by
  rw [val_main_v17_apply, val_main_v16_apply, val_main_v13_apply, val_main_v15_apply, val_main_v14_apply, val_main_call2_v0_apply, val_main_call2_cst_apply]
  simp only [val_main_v12_apply, lidx3, ridx3, bidx3, v11_eq, Ideal.maximumf_def, Ideal.addf_def, Ideal.ofBits_def, Ideal.ofBits_zero_f32]
  rfl

/-! ## Fourth layer -/

/-- The left operand of the fourth product is read at row `b`, column `k`. -/
theorem lidx4 (b : Fin 256) (j : Fin 2048) (k : Fin 65536) : lidx_main_v19 (ix2 b j) k = ix2 b k :=
  funext fun a => Fin.ext (by match a with | ⟨0, _⟩ => rfl | ⟨1, _⟩ => rfl)
/-- The transposed weight is read at row `j`, column `k` of the stored matrix. -/
theorem ridx4 (b : Fin 256) (j : Fin 2048) (k : Fin 65536) : idx_main_v18 (ridx_main_v19 (ix2 b j) k) = ix2 j k :=
  funext fun a => Fin.ext (by match a with | ⟨0, _⟩ => rfl | ⟨1, _⟩ => rfl)
/-- The broadcast bias is read at column `j`. -/
theorem bidx4 (b : Fin 256) (j : Fin 2048) : idx_main_v20 (idx_main_v21 (ix2 b j)) = ix1 j :=
  funext fun a => Fin.ext (by match a with | ⟨0, _⟩ => rfl)

/-- The fourth stage is the fourth dense layer applied to the stage before. -/
theorem v23_eq (x0 : (⟨S256x7, .f32⟩ : BufTy).Contents (Elt Ideal)) (x1 : (⟨S515x7, .f32⟩ : BufTy).Contents (Elt Ideal)) (x2 : (⟨S515, .f32⟩ : BufTy).Contents (Elt Ideal)) (x3 : (⟨S260x515, .f32⟩ : BufTy).Contents (Elt Ideal)) (x4 : (⟨S260, .f32⟩ : BufTy).Contents (Elt Ideal)) (x5 : (⟨S65536x260, .f32⟩ : BufTy).Contents (Elt Ideal)) (x6 : (⟨S65536, .f32⟩ : BufTy).Contents (Elt Ideal)) (x7 : (⟨S2048x65536, .f32⟩ : BufTy).Contents (Elt Ideal)) (x8 : (⟨S2048, .f32⟩ : BufTy).Contents (Elt Ideal)) (b : Fin 256) (j : Fin 2048) :
    val_main_v23 (F := Ideal) x0 x1 x2 x3 x4 x5 x6 x7 x8 (ix2 b j) = dense (dense (dense (dense (cur2 x0) (cur2 x1) (cur1 x2)) (cur2 x3) (cur1 x4)) (cur2 x5) (cur1 x6)) (cur2 x7) (cur1 x8) b j := by
  rw [val_main_v23_apply, val_main_v22_apply, val_main_v19_apply, val_main_v21_apply, val_main_v20_apply, val_main_call3_v0_apply, val_main_call3_cst_apply]
  simp only [val_main_v18_apply, lidx4, ridx4, bidx4, v17_eq, Ideal.maximumf_def, Ideal.addf_def, Ideal.ofBits_def, Ideal.ofBits_zero_f32]
  rfl

/-! ## The whole network -/

/-- The reference program's result at row `b`, column `n` is the four-layer network. -/
theorem ref_eq (x0 : (⟨S256x7, .f32⟩ : BufTy).Contents (Elt Ideal)) (x1 : (⟨S515x7, .f32⟩ : BufTy).Contents (Elt Ideal)) (x2 : (⟨S515, .f32⟩ : BufTy).Contents (Elt Ideal)) (x3 : (⟨S260x515, .f32⟩ : BufTy).Contents (Elt Ideal)) (x4 : (⟨S260, .f32⟩ : BufTy).Contents (Elt Ideal)) (x5 : (⟨S65536x260, .f32⟩ : BufTy).Contents (Elt Ideal)) (x6 : (⟨S65536, .f32⟩ : BufTy).Contents (Elt Ideal)) (x7 : (⟨S2048x65536, .f32⟩ : BufTy).Contents (Elt Ideal)) (x8 : (⟨S2048, .f32⟩ : BufTy).Contents (Elt Ideal)) (b : Fin 256) (n : Fin 2048) :
    val_main_v23 (F := Ideal) x0 x1 x2 x3 x4 x5 x6 x7 x8 (ix2 b n)
      = net (cur2 x0) (cur2 x1) (cur1 x2) (cur2 x3) (cur1 x4) (cur2 x5) (cur1 x6) (cur2 x7) (cur1 x8) b n := by
  rw [v23_eq]
  rfl

end Cert.RefSpec

end
-- ==== Proof.lean ====
/-
  The certificate of a four-layer perceptron, out = relu (relu (relu (relu (x·W1ᵀ + b1)·W2ᵀ + b2)·W3ᵀ + b3)·W4ᵀ + b4), computed by
  two kernel regions — the first two layers at one grid point; the last two fused on a 2 × 64 grid, each point adding one
  1024-feature tile of the third layer, contracted against the matching tile of W4, into a running sum that the last point
  of each half of the output columns turns into an output block — against the four matrix products of the reference.
  Over the extended reals the format changes are the identity and a matrix product into a zero accumulator is the plain
  sum, so both programs compute `Cert.Spec.net` of the arguments: the reference by reading its operations one by one
  (`Cert.RefSpec.ref_eq`), the kernel because the 64 tiles' partial sums, added up in the running sum, are the whole
  contraction over the 65536 hidden features (regrouping a finite sum needs commutativity and associativity of addition
  only, so the precondition is never opened). Both kernel programs run to the end with their arguments unchanged: the run
  of the regions one after the other, the running sum's buffer carried from point to point by the second region's invariant.
-/
import proofs.«174769_j66597762892542_1_alg».proof.Defs
import proofs.«174769_j66597762892542_1_alg».proof.Proof.Gen.Kernel
import proofs.«174769_j66597762892542_1_alg».proof.Proof.Gen.KernelIdeal
import proofs.«174769_j66597762892542_1_alg».proof.Proof.Gen.ReferenceIdeal
import proofs.«174769_j66597762892542_1_alg».proof.Proof.Gen.Pre_finite_inputs
import proofs.«174769_j66597762892542_1_alg».proof.Proof.Gen.ReferenceIdeal.Run
import proofs.«174769_j66597762892542_1_alg».proof.Proof.Gen.ReferenceIdeal.Read
import proofs.«174769_j66597762892542_1_alg».proof.Proof.K.Run
import proofs.«174769_j66597762892542_1_alg».proof.Proof.KI.Run
import proofs.«174769_j66597762892542_1_alg».proof.Proof.KI.Val1
import proofs.«174769_j66597762892542_1_alg».proof.Proof.RefSpec
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs to the end and leaves its nine arguments as launched. -/
theorem frame_k : Cert.frame_Kernel := fun m ρ _ => Cert.Kernel.Fr.frame (F := Bits) m ρ

/-- So does the idealized one. -/
theorem frame_ki : Cert.frame_KernelIdeal := fun m ρ _ => Cert.KernelIdeal.Fr.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the network of the arguments in their result array. -/
theorem algebraic : Cert.algebraic_KernelIdeal_ReferenceIdeal := by
  intro m ρ m' ρ' _ hagree
  refine ⟨fun c => Cert.KernelIdeal.Fr.W3 m c (Proc.devRef .tc Cert.KernelIdeal.main_v5), ?_, ?_⟩
  · exact (θ_run Cert.KernelIdeal.defs _ _).mono (fun _ h c => ⟨
      h c _ (Cert.KernelIdeal.Fr.mem_uc Cert.KernelIdeal.main_v5 (by decide)),
      (h c _ (Cert.KernelIdeal.Fr.mem_uc Cert.KernelIdeal.main_arg0 (by decide))).trans (Cert.KernelIdeal.Fr.W3_main_arg0 m c),
      (h c _ (Cert.KernelIdeal.Fr.mem_uc Cert.KernelIdeal.main_arg1 (by decide))).trans (Cert.KernelIdeal.Fr.W3_main_arg1 m c),
      (h c _ (Cert.KernelIdeal.Fr.mem_uc Cert.KernelIdeal.main_arg2 (by decide))).trans (Cert.KernelIdeal.Fr.W3_main_arg2 m c),
      (h c _ (Cert.KernelIdeal.Fr.mem_uc Cert.KernelIdeal.main_arg3 (by decide))).trans (Cert.KernelIdeal.Fr.W3_main_arg3 m c),
      (h c _ (Cert.KernelIdeal.Fr.mem_uc Cert.KernelIdeal.main_arg4 (by decide))).trans (Cert.KernelIdeal.Fr.W3_main_arg4 m c),
      (h c _ (Cert.KernelIdeal.Fr.mem_uc Cert.KernelIdeal.main_arg5 (by decide))).trans (Cert.KernelIdeal.Fr.W3_main_arg5 m c),
      (h c _ (Cert.KernelIdeal.Fr.mem_uc Cert.KernelIdeal.main_arg6 (by decide))).trans (Cert.KernelIdeal.Fr.W3_main_arg6 m c),
      (h c _ (Cert.KernelIdeal.Fr.mem_uc Cert.KernelIdeal.main_arg7 (by decide))).trans (Cert.KernelIdeal.Fr.W3_main_arg7 m c),
      (h c _ (Cert.KernelIdeal.Fr.mem_uc Cert.KernelIdeal.main_arg8 (by decide))).trans (Cert.KernelIdeal.Fr.W3_main_arg8 m c)⟩)
      (Cert.KernelIdeal.Fr.run_all (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    refine (Cert.ReferenceIdeal.Read.val_main_v23_eq _ _ _ _ _ _ _ _ _).trans ?_
    funext i
    obtain ⟨b, n, rfl⟩ : ∃ (b : Fin 256) (n : Fin 2048), i = ix2 b n := ⟨i 0, i 1, eq_ix2 i⟩
    exact (Cert.RefSpec.ref_eq _ _ _ _ _ _ _ _ _ b n).trans (Cert.KernelIdeal.Val.result_eq m c b n).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
